-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S32x2048x1024 .f32) (main_arg1 : FVec F S32x1024 .f32) (main_arg2 : FVec F S1024x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S32x1x1024 : Shape := ⟨3, ![32, 1, 1024]⟩
abbrev S32x1x2048 : Shape := ⟨3, ![32, 1, 2048]⟩
abbrev S1x2048x1024 : Shape := ⟨3, ![1, 2048, 1024]⟩
abbrev S1x1x1024 : Shape := ⟨3, ![1, 1, 1024]⟩
abbrev S1x1x2048 : Shape := ⟨3, ![1, 1, 2048]⟩
abbrev S1x2048 : Shape := ⟨2, ![1, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1 : Shape := ⟨2, ![1, 1]⟩
abbrev S1x256 : Shape := ⟨2, ![1, 256]⟩
abbrev S2048x1024 : Shape := ⟨2, ![2048, 1024]⟩
abbrev S32x2048x1 : Shape := ⟨3, ![32, 2048, 1]⟩

abbrev nBuf : Space → Nat
  | .hbm => 18
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S1024x1024, .bf16⟩
  | .hbm, ⟨9, _⟩ => ⟨S32x1024, .f32⟩
  | .hbm, ⟨10, _⟩ => ⟨S1x1024, .f32⟩
  | .hbm, ⟨11, _⟩ => ⟨S32x1024, .f32⟩
  | .hbm, ⟨12, _⟩ => ⟨S32x1024, .f32⟩
  | .hbm, ⟨13, _⟩ => ⟨S32x1x1024, .f32⟩
  | .hbm, ⟨14, _⟩ => ⟨S32x1x1024, .f32⟩
  | .hbm, ⟨15, _⟩ => ⟨S32x1x2048, .f32⟩
  | .hbm, ⟨16, _⟩ => ⟨S32x1024, .f32⟩
  | .hbm, ⟨17, _⟩ => ⟨S32x2048x1, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1024, .bf16⟩
  | .local _ .vmem, ⟨5, _⟩ => ⟨S1024, .f32⟩
  | .local _ .vmem, ⟨6, _⟩ => ⟨S1024x1, .f32⟩
  | .local _ .vmem, ⟨7, _⟩ => ⟨S1, .f32⟩
  | .local _ .vmem, ⟨8, _⟩ => ⟨S1x1x1024, .f32⟩
  | .local _ .vmem, ⟨9, _⟩ => ⟨S1x1x1024, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  shapeCasts_S32x1024_S32x1x1024 : S32x1024.ShapeCasts S32x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  inb_S1_S1_0 : ∀ a, (![0] : Fin 1 → Nat) a + S1.size a ≤ S1.size a
  h_S1 : 0 < S1.numel
  inb_S1x2048x1024_S1x256x1024_0_0_0 : ∀ a, (![0, 0, 0] : Fin 3 → Nat) a + S1x256x1024.size a ≤ S1x2048x1024.size a
  h_S1x256x1024 : 0 < S1x256x1024.numel
  shapeCasts_S1x256x1024_S256x1024 : S1x256x1024.ShapeCasts S256x1024
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  shapeCasts_S1_S1x1 : S1.ShapeCasts S1x1
  broadcasts_S1x1_S256x1 : S1x1.Broadcasts S256x1
  transposes_S256x1_p1_0_S1x256 : S256x1.Transposes [1, 0] S1x256
  inb_S1x2048_S1x256_0_0 : ∀ a, (![0, 0] : Fin 2 → Nat) a + S1x256.size a ≤ S1x2048.size a
  h_S1x256 : 0 < S1x256.numel
  shapeCasts_S1x256_S1x256 : S1x256.ShapeCasts S1x256
  inb_S1x2048x1024_S1x256x1024_0_256_0 : ∀ a, (![0, 256, 0] : Fin 3 → Nat) a + S1x256x1024.size a ≤ S1x2048x1024.size a
  inb_S1x2048_S1x256_0_256 : ∀ a, (![0, 256] : Fin 2 → Nat) a + S1x256.size a ≤ S1x2048.size a
  inb_S1x2048x1024_S1x256x1024_0_512_0 : ∀ a, (![0, 512, 0] : Fin 3 → Nat) a + S1x256x1024.size a ≤ S1x2048x1024.size a
  inb_S1x2048_S1x256_0_512 : ∀ a, (![0, 512] : Fin 2 → Nat) a + S1x256.size a ≤ S1x2048.size a
  inb_S1x2048x1024_S1x256x1024_0_768_0 : ∀ a, (![0, 768, 0] : Fin 3 → Nat) a + S1x256x1024.size a ≤ S1x2048x1024.size a
  inb_S1x2048_S1x256_0_768 : ∀ a, (![0, 768] : Fin 2 → Nat) a + S1x256.size a ≤ S1x2048.size a
  inb_S1x2048x1024_S1x256x1024_0_1024_0 : ∀ a, (![0, 1024, 0] : Fin 3 → Nat) a + S1x256x1024.size a ≤ S1x2048x1024.size a
  inb_S1x2048_S1x256_0_1024 : ∀ a, (![0, 1024] : Fin 2 → Nat) a + S1x256.size a ≤ S1x2048.size a
  inb_S1x2048x1024_S1x256x1024_0_1280_0 : ∀ a, (![0, 1280, 0] : Fin 3 → Nat) a + S1x256x1024.size a ≤ S1x2048x1024.size a
  inb_S1x2048_S1x256_0_1280 : ∀ a, (![0, 1280] : Fin 2 → Nat) a + S1x256.size a ≤ S1x2048.size a
  inb_S1x2048x1024_S1x256x1024_0_1536_0 : ∀ a, (![0, 1536, 0] : Fin 3 → Nat) a + S1x256x1024.size a ≤ S1x2048x1024.size a
  inb_S1x2048_S1x256_0_1536 : ∀ a, (![0, 1536] : Fin 2 → Nat) a + S1x256.size a ≤ S1x2048.size a
  inb_S1x2048x1024_S1x256x1024_0_1792_0 : ∀ a, (![0, 1792, 0] : Fin 3 → Nat) a + S1x256x1024.size a ≤ S1x2048x1024.size a
  inb_S1x2048_S1x256_0_1792 : ∀ a, (![0, 1792] : Fin 2 → Nat) a + S1x256.size a ≤ S1x2048.size a
  inb_S1x2048_S1x2048_0_0 : ∀ a, (![0, 0] : Fin 2 → Nat) a + S1x2048.size a ≤ S1x2048.size a
  h_S1x2048 : 0 < S1x2048.numel
  reduces_S1x2048_S1 : S1x2048.Reduces [1] S1
  broadcasts_S1x1_S1x2048 : S1x1.Broadcasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S1x1x1024_S1x1024 : S1x1x1024.ShapeCasts S1x1024
  shapeCasts_S1x1024_S1x1x1024 : S1x1024.ShapeCasts S1x1x1024
  shapeCasts_S32x1x1024_S32x1024 : S32x1x1024.ShapeCasts S32x1024
  transposes_S32x1x2048_S32x2048x1_0_2_1 : S32x1x2048.Transposes [0, 2, 1] S32x2048x1
  dot_S32x1024_S1024x1024_S32x1024_1_0_0_1_n_n_wf : DotDims.WF S32x1024 S1024x1024 S32x1024 [1] [0] [0] [1] [] []
  dot_S256x1024_S1024x1024_S256x1024_1_0_0_1_n_n_wf : DotDims.WF S256x1024 S1024x1024 S256x1024 [1] [0] [0] [1] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S32x2048x1024.size a
  hwx0_0 : ∀ i : grid0.Coords, EltTy.bits .f32 = 32 ∨ (Rect.block (s := S32x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .f32 = 32 ∨ (Rect.block (s := S32x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S32x1x1024.size a
  hwx0_6 : ∀ i : grid0.Coords, EltTy.bits .f32 = 32 ∨ (Rect.block (s := S32x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S32x1x2048.size a
  hwx0_7 : ∀ i : grid0.Coords, EltTy.bits .f32 = 32 ∨ (Rect.block (s := S32x1x2048) S1x1x2048.size (cc0_transform_7 i) (hinb0_7 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x1x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S1x1x1024 : Shape := ⟨3, ![1, 1, 1024]⟩
abbrev S32x1x1024 : Shape := ⟨3, ![32, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32x1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S32x2048x1024, .f32⟩
  | .hbm, ⟨13, _⟩ => ⟨S1x1x1024, .f32⟩
  | .hbm, ⟨14, _⟩ => ⟨S32x2048x1024, .f32⟩
  | .hbm, ⟨15, _⟩ => ⟨S32x2048x1024, .f32⟩
  | .hbm, ⟨16, _⟩ => ⟨S32x1x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1, .f32⟩
  | .hbm, ⟨21, _⟩ => ⟨S1x1x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1x1, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S32x2048x1, .f32⟩
  | .hbm, ⟨37, _⟩ => ⟨S32x2048x1, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x1024_S1024x1024_S32x1024_1_0_0_1_n_n_wf : DotDims.WF S32x1024 S1024x1024 S32x1024 [1] [0] [0] [1] [] []
  dot_S32x2048x1024_S1024x1024_S32x2048x1024_2_0_01_1_n_n_wf : DotDims.WF S32x2048x1024 S1024x1024 S32x2048x1024 [2] [0] [0, 1] [1] [] []
  dot_S32x2048x1024_S1024x1_S32x2048x1_2_0_01_1_n_n_wf : DotDims.WF S32x2048x1024 S1024x1 S32x2048x1 [2] [0] [0, 1] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf
def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf

class Facts : Prop extends Facts₀ where

variable [Facts]
-- ==== Proof.Spec.lean ====
/-
  Additive attention over one batch row, and over the whole arrays, as plain functions on the extended reals.

  For one feature row `xr d` (1024 channels), projected hidden state `hf u`, weights `w d u`, bias `b1 u`, scoring
  vector `v u` and scoring bias `vb`:
    logit = (∑ u, tanh ((∑ d, xr d · w d u + b1 u) + hf u) · v u) + vb.
  For 2048 logits `l`:
    softmax t = exp (l t − max over k of l k) / ∑ k, exp (l k − max).
  For one batch row with features `xf t d` (2048 positions): attn t = softmax of the positions' logits, and
    ctx d = ∑ t, attn t · xf t d.
  The maximum is the fold of `max` from `⊥`, and the quotient is the exact extended-real division, so every definition is
  total: nothing here asks the inputs to be finite.
  The projected hidden state of batch row `b` is `hid b u = (∑ d, hidden (b, d) · W2 (d, u)) + b2 u`.
-/
import Idealize.ShloMosaic.PureOps.Ideal
import Idealize.ShloMosaic.Lib.ValueIdx

noncomputable section

namespace Cert.AdditiveAttention

open Idealize.ShloMosaic Idealize.ShloMosaic.ValueIdx

/-- The attention logit of one feature row `xr`: the scoring vector applied to `tanh` of the projected features plus
    the projected hidden state, plus the scoring bias. -/
def logitOf (xr : Fin 1024 → EReal) (hf : Fin 1024 → EReal) (w : Fin 1024 → Fin 1024 → EReal)
    (b1 : Fin 1024 → EReal) (v : Fin 1024 → EReal) (vb : EReal) : EReal :=
  (∑ u : Fin 1024, Ideal.tanh (((∑ d : Fin 1024, xr d * w d u) + b1 u) + hf u) * v u) + vb

/-- The largest of 2048 logits (the fold of `max` from `⊥`). -/
def maxOf (l : Fin 2048 → EReal) : EReal := (Finset.univ : Finset (Fin 2048)).fold max ⊥ l

/-- The softmax of 2048 logits at position `t`: the shifted exponential over the sum of them all. -/
def softmaxAt (l : Fin 2048 → EReal) (t : Fin 2048) : EReal :=
  Ideal.div (Ideal.exp (l t - maxOf l)) (∑ k : Fin 2048, Ideal.exp (l k - maxOf l))

section Row

variable (xf : Fin 2048 → Fin 1024 → EReal) (hf : Fin 1024 → EReal) (w : Fin 1024 → Fin 1024 → EReal)
  (b1 : Fin 1024 → EReal) (v : Fin 1024 → EReal) (vb : EReal)

/-- The attention logit of position `t` of a batch row. -/
def rowLogit (t : Fin 2048) : EReal := logitOf (xf t) hf w b1 v vb

/-- The attention weight of position `t`. -/
def rowAttn (t : Fin 2048) : EReal := softmaxAt (rowLogit xf hf w b1 v vb) t

/-- The context vector's channel `d`: the attention-weighted sum of the features over the positions. -/
def rowCtx (d : Fin 1024) : EReal := ∑ t : Fin 2048, rowAttn xf hf w b1 v vb t * xf t d

end Row

section Whole

variable (X : (⟨3, ![32, 2048, 1024]⟩ : Shape).Idx → EReal) (Hd : (⟨2, ![32, 1024]⟩ : Shape).Idx → EReal)
  (W1 : (⟨2, ![1024, 1024]⟩ : Shape).Idx → EReal) (B1 : (⟨1, ![1024]⟩ : Shape).Idx → EReal)
  (W2 : (⟨2, ![1024, 1024]⟩ : Shape).Idx → EReal) (B2 : (⟨1, ![1024]⟩ : Shape).Idx → EReal)
  (Vw : (⟨2, ![1024, 1]⟩ : Shape).Idx → EReal) (Vb : (⟨1, ![1]⟩ : Shape).Idx → EReal)

/-- The projected hidden state of batch row `b`, channel `u`. -/
def hid (b : Fin 32) (u : Fin 1024) : EReal := (∑ d : Fin 1024, Hd (ix2 b d) * W2 (ix2 d u)) + B2 (ix1 u)

/-- The attention weight of batch row `b` at position `t`, from the eight argument arrays. -/
def attnAt (b : Fin 32) (t : Fin 2048) : EReal :=
  rowAttn (fun t d => X (ix3 b t d)) (hid Hd W2 B2 b) (fun d u => W1 (ix2 d u)) (fun u => B1 (ix1 u))
    (fun u => Vw (ix2 u (0 : Fin 1))) (Vb (ix1 (0 : Fin 1))) t

/-- The context vector of batch row `b` at channel `d`, from the eight argument arrays. -/
def ctxAt (b : Fin 32) (d : Fin 1024) : EReal :=
  rowCtx (fun t d => X (ix3 b t d)) (hid Hd W2 B2 b) (fun d u => W1 (ix2 d u)) (fun u => B1 (ix1 u))
    (fun u => Vw (ix2 u (0 : Fin 1))) (Vb (ix1 (0 : Fin 1))) d

end Whole

end Cert.AdditiveAttention

end
-- ==== Proof.TilePay.lean ====
/-
  The kernel body's arithmetic read at an index, at the ideal instance: each 256-position tile's payload is the
  positions' attention logits, the softmax payload is the softmax of the 2048 logits it is given, and the context payload
  is the softmax-weighted sum of the feature rows.
-/
import proofs.«406236_j50689204027783_3_alg».proof.Proof.Gen.KernelIdeal.Skeleton
import proofs.«406236_j50689204027783_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.AdditiveAttention

/-! ## Layout steps the tile payloads and the softmax payload use, read at an index written by coordinates -/

section Layout
variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
private theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1, 1, a]` array cast to `[a]` reads, at `i`, the operand at `(0, 0, i)`. -/
private theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- A `[1, 1]` array broadcast to `[a, b]` reads its one element everywhere. -/
private theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Over a row-wise reduction of an `[a, b]` array, the source index above result index `i` with lane `k` is `(i, k)`. -/
private theorem lift_lane {a b : ℕ} (h : (⟨2, ![a, b]⟩ : Shape).Reduces [1] ⟨1, ![a]⟩) (i : Fin a) (k : Fin b) :
    h.lift (ix1 i) k = ix2 i k := by
  funext c
  match c with
  | ⟨0, _⟩ => exact Fin.ext rfl
  | ⟨1, _⟩ => exact Fin.ext rfl

end Layout

/-- The sum over the lanes of an `[a, b]` vector from the zero word, at row `i`: the sum of the row. -/
private theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  exact Finset.sum_congr rfl fun k _ => congrArg src (lift_lane h i k)

/-! ## The tile product: a 256 × 1024 block times the 1024 × 1024 weights, contracted over the shared axis -/

private theorem lhs_tile_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
private theorem lhs_tile_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
private theorem rhs_tile_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
private theorem rhs_tile_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The tile product into the zero accumulator, at row `r` and column `u`: the sum over the shared axis. -/
private theorem tileMatmul_apply (l : FVec Ideal S256x1024 .bf16) (w : FVec Ideal S1024x1024 .bf16) (r : Fin 256) (u : Fin 1024) :
    matmul dot_S256x1024_S1024x1024_S256x1024_1_0_0_1_n_n none l w (constant S256x1024 .f32 0x00000000#32) (ix2 r u)
      = ∑ d : Fin 1024, l (ix2 r d) * w (ix2 d u) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r u) ((contrEquiv1 dot_S256x1024_S1024x1024_S256x1024_1_0_0_1_n_n 1024 rfl rfl).symm k) = ix2 r k := funext fun a => Fin.ext (by
    match a with
    | ⟨0, _⟩ => exact lhs_tile_0 _ _
    | ⟨1, _⟩ => exact (lhs_tile_1 _ _).trans hk)
  have er : dot_S256x1024_S1024x1024_S256x1024_1_0_0_1_n_n.rhsIdx (ix2 r u) ((contrEquiv1 dot_S256x1024_S1024x1024_S256x1024_1_0_0_1_n_n 1024 rfl rfl).symm k) = ix2 k u := funext fun a => Fin.ext (by
    match a with
    | ⟨0, _⟩ => exact (rhs_tile_0 _ _).trans hk
    | ⟨1, _⟩ => exact rhs_tile_1 _ _)
  rw [el, er]

/-! ## The context product: the `[1, 2048]` row of weights times the `[2048, 1024]` features, contracted over the positions -/

private theorem lhs_ctx_0 (i : S1x1024.Idx) (q : dot_S1x2048_S2048x1024_S1x1024_1_0_0_1_n_n.contr.Idx) :
    (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
private theorem lhs_ctx_1 (i : S1x1024.Idx) (q : dot_S1x2048_S2048x1024_S1x1024_1_0_0_1_n_n.contr.Idx) :
    (dot_S1x2048_S2048x1024_S1x1024_1_0_0_1_n_n.lhsIdx i q 1).val = (q ⟨0, by decide⟩).val :=
  dot_S1x2048_S2048x1024_S1x1024_1_0_0_1_n_n.lhsIdx_val_of_single rfl i q
private theorem rhs_ctx_0 (i : S1x1024.Idx) (q : dot_S1x2048_S2048x1024_S1x1024_1_0_0_1_n_n.contr.Idx) :
    (dot_S1x2048_S2048x1024_S1x1024_1_0_0_1_n_n.rhsIdx i q 0).val = (q ⟨0, by decide⟩).val :=
  dot_S1x2048_S2048x1024_S1x1024_1_0_0_1_n_n.rhsIdx_val_of_single rfl i q
private theorem rhs_ctx_1 (i : S1x1024.Idx) (q : dot_S1x2048_S2048x1024_S1x1024_1_0_0_1_n_n.contr.Idx) :
    (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- The context product into the zero accumulator, at `(p, d)`: the sum over the positions. -/
private theorem ctxMatmul_apply (l : FVec Ideal S1x2048 .f32) (w : FVec Ideal S2048x1024 .f32) (p : Fin 1) (d : Fin 1024) :
    matmul dot_S1x2048_S2048x1024_S1x1024_1_0_0_1_n_n (some .fp32) l w (constant S1x1024 .f32 0x00000000#32) (ix2 p d)
      = ∑ t : Fin 2048, l (ix2 p t) * w (ix2 t d) := by
  simp only [matmul]
  rw [Ideal.matmul_constant_zero_apply, ← Equiv.sum_comp (contrEquiv1 dot_S1x2048_S2048x1024_S1x1024_1_0_0_1_n_n 2048 rfl rfl).symm]
  refine Finset.sum_congr rfl fun k _ => ?_
  have hk := contrEquiv1_symm_val dot_S1x2048_S2048x1024_S1x1024_1_0_0_1_n_n 2048 rfl rfl k
  have el : dot_S1x2048_S2048x1024_S1x1024_1_0_0_1_n_n.lhsIdx (ix2 p d) ((contrEquiv1 dot_S1x2048_S2048x1024_S1x1024_1_0_0_1_n_n 2048 rfl rfl).symm k) = ix2 p k := funext fun a => Fin.ext (by
    match a with
    | ⟨0, _⟩ => exact lhs_ctx_0 _ _
    | ⟨1, _⟩ => exact (lhs_ctx_1 _ _).trans hk)
  have er : dot_S1x2048_S2048x1024_S1x1024_1_0_0_1_n_n.rhsIdx (ix2 p d) ((contrEquiv1 dot_S1x2048_S2048x1024_S1x1024_1_0_0_1_n_n 2048 rfl rfl).symm k) = ix2 k d := funext fun a => Fin.ext (by
    match a with
    | ⟨0, _⟩ => exact (rhs_ctx_0 _ _).trans hk
    | ⟨1, _⟩ => exact rhs_ctx_1 _ _)
  rw [el, er]

variable (x1 : Vec Ideal S1x1x1024 .f32) (x2 : Vec Ideal S1024x1024 .bf16) (x3 : Vec Ideal S1024 .f32)
  (x4 : Vec Ideal S1024x1 .f32) (x5 : Vec Ideal S1 .f32) (xt : Vec Ideal S1x256x1024 .f32)

/-- The logit of row `r` of a 256-position tile `xt`, from the body's loaded blocks. -/
abbrev tileLogit (r : Fin 256) : EReal :=
  logitOf (fun d => xt (ix3 (0 : Fin 1) r d)) (fun u => x1 (ix3 (0 : Fin 1) (0 : Fin 1) u)) (fun d u => x2 (ix2 d u))
    (fun u => x3 (ix1 u)) (fun u => x4 (ix2 u (0 : Fin 1))) (x5 (ix1 (0 : Fin 1)))

/-! ## The pieces every tile shares -/

/-- A hyperbolic tangent at an index is the extended reals' one of the element. -/
private theorem tanh_apply {s : Shape} {φ : FTy} (a : FVec Ideal s φ) (i : s.Idx) : tanh a i = Ideal.tanh (a i) := rfl
/-- An exponential at an index is the extended reals' one of the element. -/
private theorem exp_apply {s : Shape} {φ : FTy} (a : FVec Ideal s φ) (i : s.Idx) : exp a i = Ideal.exp (a i) := rfl

/-- The projected hidden state read out of its `[1, 1, 1024]` block. -/
private theorem pay1_apply (u : Fin 1024) : k0_pay1 x1 (ix1 u) = x1 (ix3 (0 : Fin 1) (0 : Fin 1) u) := by
  unfold k0_pay1
  exact shapeCast_11a_a_apply x1 _ u

/-- The weights' cast to their own shape is the weights. -/
private theorem pay2_eq : k0_pay2 x2 = x2 := by
  unfold k0_pay2
  exact shapeCast_self x2 _

/-- The scoring vector read out of its `[1024, 1]` column. -/
private theorem pay3_apply (u : Fin 1024) : k0_pay3 x4 (ix1 u) = x4 (ix2 u (0 : Fin 1)) := by
  unfold k0_pay3
  exact shapeCast_a1_a_apply x4 _ u

/-- The tile's features, viewed `[256, 1024]` and narrowed (the identity on extended reals), times the weights:
    row `r`, column `u` is the sum over the channels of row `r` of the tile times column `u` of the weights. -/
private theorem tileProj_apply (w : FVec Ideal S1024x1024 .bf16) (r : Fin 256) (u : Fin 1024) :
    matmul dot_S256x1024_S1024x1024_S256x1024_1_0_0_1_n_n none
        (truncf .bf16 (shapeCast S256x1024 xt shapeCasts_S1x256x1024_S256x1024) bitsLt_bf16_f32) w
        (constant S256x1024 .f32 0x00000000#32) (ix2 r u)
      = ∑ d : Fin 1024, xt (ix3 (0 : Fin 1) r d) * w (ix2 d u) := by
  rw [tileMatmul_apply]
  refine Finset.sum_congr rfl fun d _ => ?_
  rw [truncf_apply, shapeCast_1ab_ab_apply]

/-! ## The eight tiles

The first tile's payload is read step by step: the keepdims column and the transpose only move the row's sum to `(0, r)`;
the sum over the lanes is the sum over the 1024 hidden channels; inside it the product, the hyperbolic tangent and the two
additions read through, the three row broadcasts read their one row, and the tile product is the sum over the input channels.
The other seven payloads are the same operations cut at other places into the values the body carries from one part
to the next, so each unfolds to the first tile's term. -/

theorem tile0_apply (r : Fin 256) :
    k0_pay4 x1 x2 x3 x4 x5 xt (ix2 (0 : Fin 1) r) = tileLogit x1 x2 x3 x4 x5 xt r := by
  unfold k0_pay4
  rw [shapeCast_self, transpose_ix2_apply, addf_apply, shapeCast_a_a1_apply, broadcastTo_11_ab_apply, shapeCast_a_1a_apply,
    laneSum_apply]
  unfold tileLogit logitOf
  refine congrArg (· + x5 (ix1 (0 : Fin 1))) (Finset.sum_congr rfl fun u _ => ?_)
  rw [mulf_apply, tanh_apply, addf_apply, addf_apply, pay2_eq, tileProj_apply,
    broadcastTo_1b_ab_apply, shapeCast_a_1a_apply, broadcastTo_1b_ab_apply, shapeCast_a_1a_apply,
    broadcastTo_1b_ab_apply, shapeCast_a_1a_apply, pay1_apply, pay3_apply]

theorem tile1_apply (r : Fin 256) :
    k0_pay6 (k0_pay1 x1) (k0_pay3 x4) x5 (k0_pay5 x2 x3 xt) (ix2 (0 : Fin 1) r) = tileLogit x1 x2 x3 x4 x5 xt r := by
  exact (show k0_pay6 (k0_pay1 x1) (k0_pay3 x4) x5 (k0_pay5 x2 x3 xt) (ix2 (0 : Fin 1) r)
      = k0_pay4 x1 x2 x3 x4 x5 xt (ix2 (0 : Fin 1) r) from rfl).trans (tile0_apply x1 x2 x3 x4 x5 xt r)

theorem tile2_apply (r : Fin 256) :
    k0_pay7 (k0_pay1 x1) (k0_pay2 x2) x3 (k0_pay3 x4) x5 xt (ix2 (0 : Fin 1) r) = tileLogit x1 x2 x3 x4 x5 xt r := by
  exact (show k0_pay7 (k0_pay1 x1) (k0_pay2 x2) x3 (k0_pay3 x4) x5 xt (ix2 (0 : Fin 1) r)
      = k0_pay4 x1 x2 x3 x4 x5 xt (ix2 (0 : Fin 1) r) from rfl).trans (tile0_apply x1 x2 x3 x4 x5 xt r)

theorem tile3_apply (r : Fin 256) :
    k0_pay10 (k0_pay1 x1) (k0_pay3 x4) x5 (k0_pay8 (k0_pay2 x2) xt) (k0_pay9 x3) (ix2 (0 : Fin 1) r)
      = tileLogit x1 x2 x3 x4 x5 xt r := by
  exact (show k0_pay10 (k0_pay1 x1) (k0_pay3 x4) x5 (k0_pay8 (k0_pay2 x2) xt) (k0_pay9 x3) (ix2 (0 : Fin 1) r)
      = k0_pay4 x1 x2 x3 x4 x5 xt (ix2 (0 : Fin 1) r) from rfl).trans (tile0_apply x1 x2 x3 x4 x5 xt r)

theorem tile4_apply (r : Fin 256) :
    k0_pay11 (k0_pay1 x1) (k0_pay2 x2) x3 (k0_pay3 x4) x5 xt (ix2 (0 : Fin 1) r) = tileLogit x1 x2 x3 x4 x5 xt r := by
  exact (show k0_pay11 (k0_pay1 x1) (k0_pay2 x2) x3 (k0_pay3 x4) x5 xt (ix2 (0 : Fin 1) r)
      = k0_pay4 x1 x2 x3 x4 x5 xt (ix2 (0 : Fin 1) r) from rfl).trans (tile0_apply x1 x2 x3 x4 x5 xt r)

theorem tile5_apply (r : Fin 256) :
    k0_pay13 (k0_pay1 x1) (k0_pay2 x2) x3 (k0_pay3 x4) x5 (k0_pay12 xt) (constant S256x1024 .f32 0#32) (ix2 (0 : Fin 1) r)
      = tileLogit x1 x2 x3 x4 x5 xt r := by
  exact (show k0_pay13 (k0_pay1 x1) (k0_pay2 x2) x3 (k0_pay3 x4) x5 (k0_pay12 xt) (constant S256x1024 .f32 0#32) (ix2 (0 : Fin 1) r)
      = k0_pay4 x1 x2 x3 x4 x5 xt (ix2 (0 : Fin 1) r) from rfl).trans (tile0_apply x1 x2 x3 x4 x5 xt r)

theorem tile6_apply (r : Fin 256) :
    k0_pay14 (k0_pay1 x1) (k0_pay2 x2) x3 (k0_pay3 x4) x5 xt (ix2 (0 : Fin 1) r) = tileLogit x1 x2 x3 x4 x5 xt r := by
  exact (show k0_pay14 (k0_pay1 x1) (k0_pay2 x2) x3 (k0_pay3 x4) x5 xt (ix2 (0 : Fin 1) r)
      = k0_pay4 x1 x2 x3 x4 x5 xt (ix2 (0 : Fin 1) r) from rfl).trans (tile0_apply x1 x2 x3 x4 x5 xt r)

theorem tile7_apply (r : Fin 256) :
    k0_pay16 (k0_pay1 x1) (k0_pay2 x2) x3 (k0_pay3 x4) x5 (k0_pay15 xt) (ix2 (0 : Fin 1) r)
      = tileLogit x1 x2 x3 x4 x5 xt r := by
  exact (show k0_pay16 (k0_pay1 x1) (k0_pay2 x2) x3 (k0_pay3 x4) x5 (k0_pay15 xt) (ix2 (0 : Fin 1) r)
      = k0_pay4 x1 x2 x3 x4 x5 xt (ix2 (0 : Fin 1) r) from rfl).trans (tile0_apply x1 x2 x3 x4 x5 xt r)

/-! ## The softmax payload and the context payload -/

/-- The word `0xFF800000` is the extended reals' `⊥`. -/
private theorem ofBits_negInf : Ideal.ofBits .f32 0xFF800000#32 = ⊥ := by simp [Ideal.ofBits, Ideal.ieee]

/-- The maximum over the lanes of an `[a, b]` vector from the word of `-∞`, at row `i`: the fold of `max` from `⊥` over the row. -/
private theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max ⊥ (fun k => src (ix2 i k)) := by
  refine (Ideal.multiReduction_maximumf_single src 0xFF800000#32 h hφ hacc (ix1 i)).trans ?_
  have e : (src ∘ h.lift (ix1 i)) = fun k : Fin b => src (ix2 i k) := funext fun k => congrArg src (lift_lane h i k)
  exact congrArg₂ (fun (z : EReal) (f : Fin b → EReal) => (Finset.univ : Finset (Fin b)).fold max z f) ofBits_negInf e

/-- The softmax over the lanes of a `[1, 2048]` row of logits, at lane `t`: the row's maximum is taken from `⊥`, broadcast
    back over the lanes and subtracted; the exponentials' sum over the lanes is broadcast back likewise and divides. -/
private theorem pay17_apply (row : Vec Ideal S1x2048 .f32) (t : Fin 2048) :
    k0_pay17 row (ix2 (0 : Fin 1) t) = softmaxAt (fun k => row (ix2 (0 : Fin 1) k)) t := by
  unfold k0_pay17
  rw [divf_apply, exp_apply, subf_apply, broadcastTo_11_ab_apply, shapeCast_a_1a_apply, laneMax_apply,
    broadcastTo_11_ab_apply, shapeCast_a_1a_apply, laneSum_apply]
  unfold softmaxAt maxOf
  refine congrArg (Ideal.div _) (Finset.sum_congr rfl fun k _ => ?_)
  rw [exp_apply, subf_apply, broadcastTo_11_ab_apply, shapeCast_a_1a_apply, laneMax_apply]

/-- The attention payload at position `t` is the softmax of the row of logits it is given. -/
theorem attn_pay (row : Vec Ideal S1x2048 .f32) (t : Fin 2048) :
    k0_pay18 row (ix3 (0 : Fin 1) (0 : Fin 1) t) = softmaxAt (fun k => row (ix2 (0 : Fin 1) k)) t := by
  unfold k0_pay18
  rw [shapeCast_ab_1ab_apply, pay17_apply]

/-- The context payload at channel `d` is the softmax-weighted sum of the feature rows. -/
theorem ctx_pay (row : Vec Ideal S1x2048 .f32) (x0 : Vec Ideal S1x2048x1024 .f32) (d : Fin 1024) :
    k0_pay19 row x0 (ix3 (0 : Fin 1) (0 : Fin 1) d)
      = ∑ t : Fin 2048, softmaxAt (fun k => row (ix2 (0 : Fin 1) k)) t * x0 (ix3 (0 : Fin 1) t d) := by
  unfold k0_pay19
  rw [shapeCast_ab_1ab_apply, ctxMatmul_apply]
  refine Finset.sum_congr rfl fun t _ => ?_
  rw [pay17_apply, shapeCast_1ab_ab_apply]

end Cert.KernelIdeal.Pay

end
-- ==== Proof.Pieces.lean ====
/-
  What one grid point leaves in its two output blocks, as values at the ideal instance.

  The body writes the 2048 attention logits of its batch row into a scratch row, 256 positions at a time: each of the eight
  stores is the block of ONE function of the position — the logit of that position's feature row — so the row read back
  whole is that function. The attention block is then the softmax of the row and the context block the softmax-weighted sum
  of the feature rows.
-/
import proofs.«406236_j50689204027783_3_alg».proof.Proof.Gen.KernelIdeal.Frame
import proofs.«406236_j50689204027783_3_alg».proof.Proof.TilePay
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen Cert.KernelIdeal.Pay Cert.AdditiveAttention

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (x0 : Vec Ideal S1x2048x1024 .f32) (x1 : Vec Ideal S1x1x1024 .f32) (x2 : Vec Ideal S1024x1024 .bf16) (x3 : Vec Ideal S1024 .f32) (x4 : Vec Ideal S1024x1 .f32) (x5 : Vec Ideal S1 .f32)

/-- The position a scratch-row index names, as a number below 2048. -/
def pos (y : S1x2048.Idx) : Fin 2048 := ⟨(y 1).val, idx2_lt1 y⟩

/-- The row of attention logits of a batch row's blocks: at each position the logit of that position's feature row. -/
def logitRow : Vec Ideal S1x2048 .f32 := fun y =>
  logitOf (fun d => x0 (ix3 (0 : Fin 1) (pos y) d)) (fun u => x1 (ix3 (0 : Fin 1) (0 : Fin 1) u)) (fun d u => x2 (ix2 d u))
    (fun u => x3 (ix1 u)) (fun u => x4 (ix2 u (0 : Fin 1))) (x5 (ix1 (0 : Fin 1)))

/-- A tile's payload that is the tile's logits agrees with the logits row under the tile's rectangle: row `r` of the
    256 feature rows loaded from position `o` on is feature row `o + r`. -/
theorem tile_piece (o : Nat) (inb2 : ∀ a, (![0, o] : Fin 2 → Nat) a + S1x256.size a ≤ S1x2048.size a)
    (inb3 : ∀ a, (![0, o, 0] : Fin 3 → Nat) a + S1x256x1024.size a ≤ S1x2048x1024.size a)
    (Pl : Vec Ideal S1x256 .f32)
    (hP : ∀ r : Fin 256, Pl (ix2 (0 : Fin 1) r)
      = tileLogit x1 x2 x3 x4 x5 (View.ld x0 (Rect.unit (s := S1x2048x1024) ![0, o, 0] S1x256x1024.size inb3)) r)
    (x : (Rect.unit (s := S1x2048) ![0, o] S1x256.size inb2).shape.Idx) :
    Pl x = logitRow x0 x1 x2 x3 x4 x5 ((Rect.unit (s := S1x2048) ![0, o] S1x256.size inb2).emb x) := by
  obtain ⟨a, r, rfl⟩ : ∃ (a : Fin 1) (r : Fin 256), x = ix2 a r := ⟨x 0, x 1, eq_ix2 x⟩
  obtain rfl : a = 0 := Subsingleton.elim _ _
  have e : ∀ d : Fin 1024, View.ld x0 (Rect.unit (s := S1x2048x1024) ![0, o, 0] S1x256x1024.size inb3) (ix3 (0 : Fin 1) r d)
      = x0 (ix3 (0 : Fin 1) (pos ((Rect.unit (s := S1x2048) ![0, o] S1x256.size inb2).emb (ix2 (0 : Fin 1) r))) d) := by
    intro d
    refine congrArg x0 (funext fun b => Fin.ext ?_)
    match b with
    | ⟨0, _⟩ => rfl
    | ⟨1, _⟩ => rfl
    | ⟨2, _⟩ =>
      show 0 + 1 * d.val = d.val
      omega
  rw [hP r]
  exact congrArg (fun f => logitOf f (fun u => x1 (ix3 (0 : Fin 1) (0 : Fin 1) u)) (fun d u => x2 (ix2 d u))
    (fun u => x3 (ix1 u)) (fun u => x4 (ix2 u (0 : Fin 1))) (x5 (ix1 (0 : Fin 1)))) (funext e)

/-- The attention block a grid point leaves: the attention payload of the logits row. The one store covers the block;
    the scratch row it reads was written by eight stores, each the block of the logits row its rectangle names. -/
theorem out7_eq (c : Dev nD) (i : grid0.Coords) (arg1 : Memref sig .tc .vmem S1x2048x1024 .f32) (harg1 : arg1.IsWhole) (arg2 : Memref sig .tc .vmem S1x1x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1 .f32) (harg6 : arg6.IsWhole) (arg7 : Memref sig .tc .vmem S1x1x1024 .f32) (harg7 : arg7.IsWhole) (arg8 : Memref sig .tc .vmem S1x1x2048 .f32) (harg8 : arg8.IsWhole) (arg9 : Memref sig .tc .vmem S1x2048 .f32) (harg9 : arg9.IsWhole) :
    out0_A_7 (F := Ideal) c i arg1 harg1 arg2 harg2 arg3 harg3 arg4 harg4 arg5 harg5 arg6 harg6 arg7 harg7 arg8 harg8 arg9 harg9 x0 x1 x2 x3 x4 x5 = k0_pay18 (logitRow x0 x1 x2 x3 x4 x5) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, View.ld_unit_zero (S := S1x2048x1024) hz3, View.ld_unit_zero (S := S1x1x1024) hz3,
    View.ld_unit_zero (S := S1024x1024) hz2, View.ld_unit_zero (S := S1024) hz1, View.ld_unit_zero (S := S1024x1) hz2,
    View.ld_unit_zero (S := S1) hz1]
  refine congrArg k0_pay18 ?_
  rw [View.readCov_eq_canon']
  funext j
  refine (View.canon_apply_of_pieces (logitRow x0 x1 x2 x3 x4 x5) _ ?_ _ ?_).trans ?_
  · intro p hp
    simp only [List.mem_cons, List.mem_nil_iff, or_false] at hp
    rcases hp with rfl | rfl | rfl | rfl | rfl | rfl | rfl | rfl
    · exact tile_piece x0 x1 x2 x3 x4 x5 1792 inb_S1x2048_S1x256_0_1792 inb_S1x2048x1024_S1x256x1024_0_1792_0 _ (fun r => tile7_apply x1 x2 x3 x4 x5 _ r)
    · exact tile_piece x0 x1 x2 x3 x4 x5 1536 inb_S1x2048_S1x256_0_1536 inb_S1x2048x1024_S1x256x1024_0_1536_0 _ (fun r => tile6_apply x1 x2 x3 x4 x5 _ r)
    · exact tile_piece x0 x1 x2 x3 x4 x5 1280 inb_S1x2048_S1x256_0_1280 inb_S1x2048x1024_S1x256x1024_0_1280_0 _ (fun r => tile5_apply x1 x2 x3 x4 x5 _ r)
    · exact tile_piece x0 x1 x2 x3 x4 x5 1024 inb_S1x2048_S1x256_0_1024 inb_S1x2048x1024_S1x256x1024_0_1024_0 _ (fun r => tile4_apply x1 x2 x3 x4 x5 _ r)
    · exact tile_piece x0 x1 x2 x3 x4 x5 768 inb_S1x2048_S1x256_0_768 inb_S1x2048x1024_S1x256x1024_0_768_0 _ (fun r => tile3_apply x1 x2 x3 x4 x5 _ r)
    · exact tile_piece x0 x1 x2 x3 x4 x5 512 inb_S1x2048_S1x256_0_512 inb_S1x2048x1024_S1x256x1024_0_512_0 _ (fun r => tile2_apply x1 x2 x3 x4 x5 _ r)
    · exact tile_piece x0 x1 x2 x3 x4 x5 256 inb_S1x2048_S1x256_0_256 inb_S1x2048x1024_S1x256x1024_0_256_0 _ (fun r => tile1_apply x1 x2 x3 x4 x5 _ r)
    · exact tile_piece x0 x1 x2 x3 x4 x5 0 inb_S1x2048_S1x256_0_0 inb_S1x2048x1024_S1x256x1024_0_0_0 _ (fun r => tile0_apply x1 x2 x3 x4 x5 _ r)
  · exact View.cover_of_tiledL (s := S1x2048) _ S1x256.size (by sl_kernel_rfl) _
  · refine congrArg (logitRow x0 x1 x2 x3 x4 x5) (funext fun a => Fin.ext ?_)
    match a with
    | ⟨0, _⟩ =>
      show 0 + 1 * (j 0).val = (j 0).val
      omega
    | ⟨1, _⟩ =>
      show 0 + 1 * (j 1).val = (j 1).val
      omega

/-- The context block a grid point leaves: the context payload of the logits row and the feature block. -/
theorem out6_eq (c : Dev nD) (i : grid0.Coords) (arg1 : Memref sig .tc .vmem S1x2048x1024 .f32) (harg1 : arg1.IsWhole) (arg2 : Memref sig .tc .vmem S1x1x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1 .f32) (harg6 : arg6.IsWhole) (arg7 : Memref sig .tc .vmem S1x1x1024 .f32) (harg7 : arg7.IsWhole) (arg8 : Memref sig .tc .vmem S1x1x2048 .f32) (harg8 : arg8.IsWhole) (arg9 : Memref sig .tc .vmem S1x2048 .f32) (harg9 : arg9.IsWhole) :
    out0_A_6 (F := Ideal) c i arg1 harg1 arg2 harg2 arg3 harg3 arg4 harg4 arg5 harg5 arg6 harg6 arg7 harg7 arg8 harg8 arg9 harg9 x0 x1 x2 x3 x4 x5 = k0_pay19 (logitRow x0 x1 x2 x3 x4 x5) x0 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, View.ld_unit_zero (S := S1x2048x1024) hz3, View.ld_unit_zero (S := S1x1x1024) hz3,
    View.ld_unit_zero (S := S1024x1024) hz2, View.ld_unit_zero (S := S1024) hz1, View.ld_unit_zero (S := S1024x1) hz2,
    View.ld_unit_zero (S := S1) hz1]
  refine congrArg (fun row => k0_pay19 row x0) ?_
  rw [View.readCov_eq_canon']
  funext j
  refine (View.canon_apply_of_pieces (logitRow x0 x1 x2 x3 x4 x5) _ ?_ _ ?_).trans ?_
  · intro p hp
    simp only [List.mem_cons, List.mem_nil_iff, or_false] at hp
    rcases hp with rfl | rfl | rfl | rfl | rfl | rfl | rfl | rfl
    · exact tile_piece x0 x1 x2 x3 x4 x5 1792 inb_S1x2048_S1x256_0_1792 inb_S1x2048x1024_S1x256x1024_0_1792_0 _ (fun r => tile7_apply x1 x2 x3 x4 x5 _ r)
    · exact tile_piece x0 x1 x2 x3 x4 x5 1536 inb_S1x2048_S1x256_0_1536 inb_S1x2048x1024_S1x256x1024_0_1536_0 _ (fun r => tile6_apply x1 x2 x3 x4 x5 _ r)
    · exact tile_piece x0 x1 x2 x3 x4 x5 1280 inb_S1x2048_S1x256_0_1280 inb_S1x2048x1024_S1x256x1024_0_1280_0 _ (fun r => tile5_apply x1 x2 x3 x4 x5 _ r)
    · exact tile_piece x0 x1 x2 x3 x4 x5 1024 inb_S1x2048_S1x256_0_1024 inb_S1x2048x1024_S1x256x1024_0_1024_0 _ (fun r => tile4_apply x1 x2 x3 x4 x5 _ r)
    · exact tile_piece x0 x1 x2 x3 x4 x5 768 inb_S1x2048_S1x256_0_768 inb_S1x2048x1024_S1x256x1024_0_768_0 _ (fun r => tile3_apply x1 x2 x3 x4 x5 _ r)
    · exact tile_piece x0 x1 x2 x3 x4 x5 512 inb_S1x2048_S1x256_0_512 inb_S1x2048x1024_S1x256x1024_0_512_0 _ (fun r => tile2_apply x1 x2 x3 x4 x5 _ r)
    · exact tile_piece x0 x1 x2 x3 x4 x5 256 inb_S1x2048_S1x256_0_256 inb_S1x2048x1024_S1x256x1024_0_256_0 _ (fun r => tile1_apply x1 x2 x3 x4 x5 _ r)
    · exact tile_piece x0 x1 x2 x3 x4 x5 0 inb_S1x2048_S1x256_0_0 inb_S1x2048x1024_S1x256x1024_0_0_0 _ (fun r => tile0_apply x1 x2 x3 x4 x5 _ r)
  · exact View.cover_of_tiledL (s := S1x2048) _ S1x256.size (by sl_kernel_rfl) _
  · refine congrArg (logitRow x0 x1 x2 x3 x4 x5) (funext fun a => Fin.ext ?_)
    match a with
    | ⟨0, _⟩ =>
      show 0 + 1 * (j 0).val = (j 0).val
      omega
    | ⟨1, _⟩ =>
      show 0 + 1 * (j 1).val = (j 1).val
      omega

end Cert.KernelIdeal.Pieces

end
-- ==== Proof.HostOps.lean ====
/-
  The kernel program's host operations read at an index, at the ideal instance: the projected hidden state the host
  computes before the call (a matrix product, a bias broadcast, a sum, a reshape to [32, 1, 1024]), and the two layout
  operations after it (the context's reshape to [32, 1024], the attention weights' transpose to [32, 2048, 1]).
-/
import proofs.«406236_j50689204027783_3_alg».proof.Proof.Gen.KernelIdeal
import proofs.«406236_j50689204027783_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostOps

open Idealize.ShloMosaic Idealize.ShloMosaic.ValueIdx Cert.KernelIdeal Cert.KernelIdeal.Gen Cert.AdditiveAttention

/-- The projected hidden state as the host computes it, reshaped to [32, 1, 1024]. -/
def hostHid (Hd : FVec Ideal S32x1024 .f32) (W2 : FVec Ideal S1024x1024 .f32) (B2 : FVec Ideal S1024 .f32) :
    FVec Ideal S32x1x1024 .f32 :=
  shapeCast S32x1x1024
    (addf (Host.dotGeneral (F := Ideal) dot_S32x1024_S1024x1024_S32x1024_1_0_0_1_n_n none Hd W2)
      (broadcastInDim S32x1024 ![0, 1] bcast_S1x1024_S32x1024_0_1 (broadcastInDim S1x1024 ![1] bcast_S1024_S1x1024_1 B2)))
    shapeCasts_S32x1024_S32x1x1024

/-! The matrix product `hidden · W2` at (b, u) as the sum over the contracted axis: the left operand is read at (b, k),
    the right at (k, u). The four facts below say which coordinate of each operand's index comes from the result index
    and which from the contraction index. -/

private theorem lhs_hid_0 (i : S32x1024.Idx) (q : dot_S32x1024_S1024x1024_S32x1024_1_0_0_1_n_n.contr.Idx) :
    (dot_S32x1024_S1024x1024_S32x1024_1_0_0_1_n_n.lhsIdx i q 0).val = (i 0).val := by
  unfold DotDims.lhsIdx
  rw [dif_neg (show ¬(0 : Fin S32x1024.rank) ∈ dot_S32x1024_S1024x1024_S32x1024_1_0_0_1_n_n.lhsBatch by decide), dif_pos (show (0 : Fin S32x1024.rank) ∈ dot_S32x1024_S1024x1024_S32x1024_1_0_0_1_n_n.lhsNonContracting by decide)]
  rfl
private theorem lhs_hid_1 (i : S32x1024.Idx) (q : dot_S32x1024_S1024x1024_S32x1024_1_0_0_1_n_n.contr.Idx) :
    (dot_S32x1024_S1024x1024_S32x1024_1_0_0_1_n_n.lhsIdx i q 1).val = (q ⟨0, by decide⟩).val :=
  dot_S32x1024_S1024x1024_S32x1024_1_0_0_1_n_n.lhsIdx_val_of_single rfl i q
private theorem rhs_hid_0 (i : S32x1024.Idx) (q : dot_S32x1024_S1024x1024_S32x1024_1_0_0_1_n_n.contr.Idx) :
    (dot_S32x1024_S1024x1024_S32x1024_1_0_0_1_n_n.rhsIdx i q 0).val = (q ⟨0, by decide⟩).val :=
  dot_S32x1024_S1024x1024_S32x1024_1_0_0_1_n_n.rhsIdx_val_of_single rfl i q
private theorem rhs_hid_1 (i : S32x1024.Idx) (q : dot_S32x1024_S1024x1024_S32x1024_1_0_0_1_n_n.contr.Idx) :
    (dot_S32x1024_S1024x1024_S32x1024_1_0_0_1_n_n.rhsIdx i q 1).val = (i 1).val := by
  unfold DotDims.rhsIdx
  rw [dif_neg (show ¬(1 : Fin S1024x1024.rank) ∈ dot_S32x1024_S1024x1024_S32x1024_1_0_0_1_n_n.rhsBatch by decide), dif_pos (show (1 : Fin S1024x1024.rank) ∈ dot_S32x1024_S1024x1024_S32x1024_1_0_0_1_n_n.rhsNonContracting by decide)]
  rfl

/-- The host's matrix product at (b, u): the sum over `k` of `hidden (b, k) · W2 (k, u)`. -/
private theorem dot_hid_apply (Hd : FVec Ideal S32x1024 .f32) (W2 : FVec Ideal S1024x1024 .f32) (b : Fin 32) (u : Fin 1024) :
    Host.dotGeneral (F := Ideal) dot_S32x1024_S1024x1024_S32x1024_1_0_0_1_n_n none Hd W2 (ix2 b u)
      = ∑ k : Fin 1024, Hd (ix2 b k) * W2 (ix2 k u) := by
  simp only [Host.dotGeneral]
  rw [Ideal.dotGeneral_apply, ← Equiv.sum_comp (ValueIdx.contrEquiv1 dot_S32x1024_S1024x1024_S32x1024_1_0_0_1_n_n 1024 rfl rfl).symm]
  refine Finset.sum_congr rfl fun k _ => ?_
  have hk := ValueIdx.contrEquiv1_symm_val dot_S32x1024_S1024x1024_S32x1024_1_0_0_1_n_n 1024 rfl rfl k
  have el : dot_S32x1024_S1024x1024_S32x1024_1_0_0_1_n_n.lhsIdx (ix2 b u) ((ValueIdx.contrEquiv1 dot_S32x1024_S1024x1024_S32x1024_1_0_0_1_n_n 1024 rfl rfl).symm k) = ix2 b k := funext fun a => Fin.ext (by
    match a with
    | ⟨0, _⟩ => exact lhs_hid_0 _ _
    | ⟨1, _⟩ => exact (lhs_hid_1 _ _).trans hk)
  have er : dot_S32x1024_S1024x1024_S32x1024_1_0_0_1_n_n.rhsIdx (ix2 b u) ((ValueIdx.contrEquiv1 dot_S32x1024_S1024x1024_S32x1024_1_0_0_1_n_n 1024 rfl rfl).symm k) = ix2 k u := funext fun a => Fin.ext (by
    match a with
    | ⟨0, _⟩ => exact (rhs_hid_0 _ _).trans hk
    | ⟨1, _⟩ => exact rhs_hid_1 _ _)
  rw [el, er]

/-- The bias, broadcast first to one row and then down the 32 rows, at (b, u) is `B2 u`. -/
private theorem bias_apply (B2 : FVec Ideal S1024 .f32) (b : Fin 32) (u : Fin 1024) :
    broadcastInDim S32x1024 ![0, 1] bcast_S1x1024_S32x1024_0_1 (broadcastInDim S1x1024 ![1] bcast_S1024_S1x1024_1 B2) (ix2 b u)
      = B2 (ix1 u) :=
  (broadcastInDim_apply _ bcast_S1x1024_S32x1024_0_1 _ (ix2 b u) (ix2 (0 : Fin 1) u) (fun a => match a with
    | ⟨0, _⟩ => by show 0 = if (1 : Nat) = 1 then 0 else b.val; rw [if_pos rfl]
    | ⟨1, _⟩ => by show u.val = if (1024 : Nat) = 1 then 0 else u.val; rw [if_neg (by decide)])).trans
  (broadcastInDim_apply _ bcast_S1024_S1x1024_1 B2 (ix2 (0 : Fin 1) u) (ix1 u) (fun a => match a with
    | ⟨0, _⟩ => by show u.val = if (1024 : Nat) = 1 then 0 else u.val; rw [if_neg (by decide)]))

/-- At batch row `b` and channel `u` it is the specification's projected hidden state. -/
theorem hostHid_apply (Hd : FVec Ideal S32x1024 .f32) (W2 : FVec Ideal S1024x1024 .f32) (B2 : FVec Ideal S1024 .f32)
    (b : Fin 32) (u : Fin 1024) :
    hostHid Hd W2 B2 (ix3 b (0 : Fin 1) u) = hid Hd W2 B2 b u := by
  unfold hostHid
  refine (shapeCast_apply _ shapeCasts_S32x1024_S32x1x1024 (ix3 b (0 : Fin 1) u) (ix2 b u) ?_).trans ?_
  · rw [Shape.rowMajor_val_two, Shape.rowMajor_val_three]
    show b.val * 1024 + u.val = (b.val * 1 + 0) * 1024 + u.val
    omega
  · rw [addf_apply, dot_hid_apply, bias_apply]
    rfl

/-- The context's reshape [32, 1, 1024] → [32, 1024] reads (b, d) at (b, 0, d). -/
theorem ctx_reshape_apply (A : Vec Ideal S32x1x1024 .f32) (b : Fin 32) (d : Fin 1024) :
    shapeCast S32x1024 A shapeCasts_S32x1x1024_S32x1024 (ix2 b d) = A (ix3 b (0 : Fin 1) d) := by
  refine shapeCast_apply A shapeCasts_S32x1x1024_S32x1024 (ix2 b d) (ix3 b (0 : Fin 1) d) ?_
  rw [Shape.rowMajor_val_three, Shape.rowMajor_val_two]
  show (b.val * 1 + 0) * 1024 + d.val = b.val * 1024 + d.val
  omega

/-- The attention weights' transpose [32, 1, 2048] → [32, 2048, 1] reads (b, t, 0) at (b, 0, t). -/
theorem attn_transpose_apply (A : Vec Ideal S32x1x2048 .f32) (b : Fin 32) (t : Fin 2048) :
    transpose S32x2048x1 [0, 2, 1] A transposes_S32x1x2048_S32x2048x1_0_2_1 (ix3 b t (0 : Fin 1)) = A (ix3 b (0 : Fin 1) t) := by
  exact transpose_ix3_021_apply A transposes_S32x1x2048_S32x2048x1_0_2_1 b t (0 : Fin 1)

end Cert.KernelIdeal.HostOps

end
-- ==== Proof.Blocks.lean ====
/-
  The blocks a grid point reads, as values of the argument arrays.

  Grid point `t` works on batch row `t`: its feature block is rows (t, ·, ·) of the features, its hidden block row t of
  the projected hidden state the host computed before the call, and the four parameter blocks are the whole parameter
  arrays at every point (the first weight matrix through a change of float format, which is the identity on the
  extended reals).
-/
import proofs.«406236_j50689204027783_3_alg».proof.Proof.Gen.KernelIdeal.Frame
import proofs.«406236_j50689204027783_3_alg».proof.Proof.HostOps
import Idealize.ShloMosaic.Lib.Pipeline.Value
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.HostOps Cert.AdditiveAttention

variable (m : (ℓ : Loc nD τ sig) → Buf (Elt Ideal) ℓ)

/-- The eight argument arrays, at their literal types. -/
abbrev aX (c : Dev nD) : FVec Ideal S32x2048x1024 .f32 := m ((c.tc : Thread nD τ).loc main_arg0)
abbrev aHd (c : Dev nD) : FVec Ideal S32x1024 .f32 := m ((c.tc : Thread nD τ).loc main_arg1)
abbrev aW1 (c : Dev nD) : FVec Ideal S1024x1024 .f32 := m ((c.tc : Thread nD τ).loc main_arg2)
abbrev aB1 (c : Dev nD) : FVec Ideal S1024 .f32 := m ((c.tc : Thread nD τ).loc main_arg3)
abbrev aW2 (c : Dev nD) : FVec Ideal S1024x1024 .f32 := m ((c.tc : Thread nD τ).loc main_arg4)
abbrev aB2 (c : Dev nD) : FVec Ideal S1024 .f32 := m ((c.tc : Thread nD τ).loc main_arg5)
abbrev aVw (c : Dev nD) : FVec Ideal S1024x1 .f32 := m ((c.tc : Thread nD τ).loc main_arg6)
abbrev aVb (c : Dev nD) : FVec Ideal S1 .f32 := m ((c.tc : Thread nD τ).loc main_arg7)

/-- The six input blocks of grid point `t`, at their literal types. -/
abbrev xb0 (c : Dev nD) (t : Fin cfg0.N) : Vec Ideal S1x2048x1024 .f32 := iblk m c 0 t
abbrev xb1 (c : Dev nD) (t : Fin cfg0.N) : Vec Ideal S1x1x1024 .f32 := iblk m c 1 t
abbrev xb2 (c : Dev nD) (t : Fin cfg0.N) : Vec Ideal S1024x1024 .bf16 := iblk m c 2 t
abbrev xb3 (c : Dev nD) (t : Fin cfg0.N) : Vec Ideal S1024 .f32 := iblk m c 3 t
abbrev xb4 (c : Dev nD) (t : Fin cfg0.N) : Vec Ideal S1024x1 .f32 := iblk m c 4 t
abbrev xb5 (c : Dev nD) (t : Fin cfg0.N) : Vec Ideal S1 .f32 := iblk m c 5 t

/-- The batch row grid point `t` works on. -/
def rowOf (t : Fin cfg0.N) : Fin 32 := ⟨t.val, lt_of_lt_of_eq t.isLt N_0⟩

/-- The windows' block indices at point `t`: the feature, hidden and both output windows are at block (t, 0, 0), the
    parameter windows at block zero. Decided over the 32 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- Before the call the host leaves the projected hidden state, reshaped to [32, 1, 1024], in the hidden window's array. -/
theorem V_hid (c : Dev nD) : (V m c main_v5 : Vec Ideal S32x1x1024 .f32) = hostHid (aHd m c) (aW2 m c) (aB2 m c) := by
  show StableHlo.after hostOps0 (fun b => m (c, b)) (Proc.devRef .tc main_v5) = _
  after_results
  rfl

/-- Before the call the host leaves the first weight matrix, its float format changed, in the weight window's array. -/
theorem V_w1 (c : Dev nD) :
    (V m c main_v0 : Vec Ideal S1024x1024 .bf16) = truncf .bf16 (aW1 m c) bitsLt_bf16_f32 := by
  show StableHlo.after hostOps0 (fun b => m (c, b)) (Proc.devRef .tc main_v0) = _
  after_results

/-- The feature block of point `t` is the features of batch row `t`. -/
theorem blk0 (c : Dev nD) (t : Fin cfg0.N) (p : Fin 2048) (d : Fin 1024) :
    xb0 m c t (ix3 (0 : Fin 1) p d) = aX m c (ix3 (rowOf t) p d) := by
  obtain ⟨e0, e1, e2, -⟩ := idx_facts t
  unfold xb0 iblk
  rw [View.read_apply]
  show V m c main_arg0 _ = _
  rw [V_main_arg0]
  refine congrArg (m ((c.tc : Thread nD τ).loc main_arg0)) (funext fun a => Fin.ext ?_)
  match a with
  | ⟨0, _⟩ =>
    show win0_0.index t (0 : Fin 3) * 1 + 1 * 0 = t.val
    omega
  | ⟨1, _⟩ =>
    show win0_0.index t (1 : Fin 3) * 2048 + 1 * p.val = p.val
    omega
  | ⟨2, _⟩ =>
    show win0_0.index t (2 : Fin 3) * 1024 + 1 * d.val = d.val
    omega

/-- The hidden block of point `t` is the projected hidden state of batch row `t`. -/
theorem blk1 (c : Dev nD) (t : Fin cfg0.N) (u : Fin 1024) :
    xb1 m c t (ix3 (0 : Fin 1) (0 : Fin 1) u) = hid (aHd m c) (aW2 m c) (aB2 m c) (rowOf t) u := by
  obtain ⟨-, -, -, e0, e1, e2, -⟩ := idx_facts t
  unfold xb1 iblk
  rw [View.read_apply]
  show V m c main_v5 _ = _
  rw [V_hid, ← hostHid_apply]
  refine congrArg (hostHid (aHd m c) (aW2 m c) (aB2 m c)) (funext fun a => Fin.ext ?_)
  match a with
  | ⟨0, _⟩ =>
    show win0_1.index t (0 : Fin 3) * 1 + 1 * 0 = t.val
    omega
  | ⟨1, _⟩ =>
    show win0_1.index t (1 : Fin 3) * 1 + 1 * 0 = 0
    omega
  | ⟨2, _⟩ =>
    show win0_1.index t (2 : Fin 3) * 1024 + 1 * u.val = u.val
    omega

/-- The weight block is the first weight matrix at every point. -/
theorem blk2 (c : Dev nD) (t : Fin cfg0.N) (d u : Fin 1024) :
    xb2 m c t (ix2 d u) = aW1 m c (ix2 d u) := by
  obtain ⟨-, -, -, -, -, -, e0, e1, -⟩ := idx_facts t
  unfold xb2 iblk
  rw [View.read_apply]
  show V m c main_v0 _ = _
  rw [V_w1]
  show aW1 m c _ = _
  refine congrArg (aW1 m c) (funext fun a => Fin.ext ?_)
  match a with
  | ⟨0, _⟩ =>
    show win0_2.index t (0 : Fin 2) * 1024 + 1 * d.val = d.val
    omega
  | ⟨1, _⟩ =>
    show win0_2.index t (1 : Fin 2) * 1024 + 1 * u.val = u.val
    omega

/-- The bias block is the first bias at every point. -/
theorem blk3 (c : Dev nD) (t : Fin cfg0.N) (u : Fin 1024) :
    xb3 m c t (ix1 u) = aB1 m c (ix1 u) := by
  obtain ⟨-, -, -, -, -, -, -, -, e0, -⟩ := idx_facts t
  unfold xb3 iblk
  rw [View.read_apply]
  show V m c main_arg3 _ = _
  rw [V_main_arg3]
  refine congrArg (m ((c.tc : Thread nD τ).loc main_arg3)) (funext fun a => Fin.ext ?_)
  match a with
  | ⟨0, _⟩ =>
    show win0_3.index t (0 : Fin 1) * 1024 + 1 * u.val = u.val
    omega

/-- The scoring-vector block is the scoring vector at every point. -/
theorem blk4 (c : Dev nD) (t : Fin cfg0.N) (u : Fin 1024) :
    xb4 m c t (ix2 u (0 : Fin 1)) = aVw m c (ix2 u (0 : Fin 1)) := by
  obtain ⟨-, -, -, -, -, -, -, -, -, e0, e1, -⟩ := idx_facts t
  unfold xb4 iblk
  rw [View.read_apply]
  show V m c main_arg6 _ = _
  rw [V_main_arg6]
  refine congrArg (m ((c.tc : Thread nD τ).loc main_arg6)) (funext fun a => Fin.ext ?_)
  match a with
  | ⟨0, _⟩ =>
    show win0_4.index t (0 : Fin 2) * 1024 + 1 * u.val = u.val
    omega
  | ⟨1, _⟩ =>
    show win0_4.index t (1 : Fin 2) * 1 + 1 * 0 = 0
    omega

/-- The scoring-bias block is the scoring bias at every point. -/
theorem blk5 (c : Dev nD) (t : Fin cfg0.N) :
    xb5 m c t (ix1 (0 : Fin 1)) = aVb m c (ix1 (0 : Fin 1)) := by
  obtain ⟨-, -, -, -, -, -, -, -, -, -, -, e0, -⟩ := idx_facts t
  unfold xb5 iblk
  rw [View.read_apply]
  show V m c main_arg7 _ = _
  rw [V_main_arg7]
  refine congrArg (m ((c.tc : Thread nD τ).loc main_arg7)) (funext fun a => Fin.ext ?_)
  match a with
  | ⟨0, _⟩ =>
    show win0_5.index t (0 : Fin 1) * 1 + 1 * 0 = 0
    omega

end Cert.KernelIdeal.Blocks

end
-- ==== Proof.Points.lean ====
/-
  What grid point `t` leaves in its two output blocks, in terms of the argument arrays: the attention weights and the
  context vector of batch row `t`.

  The logits row of the point's blocks is, position by position, the batch row's logit (the blocks are the arrays read at
  the point's rectangle), so the attention block — the softmax of that row — and the context block — the softmax-weighted
  sum of the feature rows — are the specification's at batch row `t`.
-/
import proofs.«406236_j50689204027783_3_alg».proof.Proof.Pieces
import proofs.«406236_j50689204027783_3_alg».proof.Proof.Blocks

set_option maxRecDepth 16384

noncomputable section

namespace Cert.KernelIdeal.Points

open Idealize.ShloMosaic Idealize.ShloMosaic.TcCoe Idealize.SL.Sem Idealize.ShloMosaic.ValueIdx
open Cert.KernelIdeal Cert.KernelIdeal.Gen Cert.KernelIdeal.Pay Cert.KernelIdeal.Pieces Cert.KernelIdeal.Blocks
open Cert.KernelIdeal.HostOps Cert.AdditiveAttention

variable (m : (ℓ : Loc nD τ sig) → Buf (Elt Ideal) ℓ)

/-- The logits row of point `t`'s blocks at position `k` is the logit of batch row `t` at position `k`. -/
theorem logit_point (c : Dev nD) (t : Fin cfg0.N) (k : Fin 2048) :
    logitRow (xb0 m c t) (xb1 m c t) (xb2 m c t) (xb3 m c t) (xb4 m c t) (xb5 m c t) (ix2 (0 : Fin 1) k)
      = rowLogit (fun p d => aX m c (ix3 (rowOf t) p d)) (hid (aHd m c) (aW2 m c) (aB2 m c) (rowOf t))
          (fun d u => aW1 m c (ix2 d u)) (fun u => aB1 m c (ix1 u)) (fun u => aVw m c (ix2 u (0 : Fin 1)))
          (aVb m c (ix1 (0 : Fin 1))) k := by
  show logitOf (fun d => xb0 m c t (ix3 (0 : Fin 1) k d)) (fun u => xb1 m c t (ix3 (0 : Fin 1) (0 : Fin 1) u))
      (fun d u => xb2 m c t (ix2 d u)) (fun u => xb3 m c t (ix1 u)) (fun u => xb4 m c t (ix2 u (0 : Fin 1)))
      (xb5 m c t (ix1 (0 : Fin 1)))
    = logitOf (fun d => aX m c (ix3 (rowOf t) k d)) (fun u => hid (aHd m c) (aW2 m c) (aB2 m c) (rowOf t) u)
      (fun d u => aW1 m c (ix2 d u)) (fun u => aB1 m c (ix1 u)) (fun u => aVw m c (ix2 u (0 : Fin 1)))
      (aVb m c (ix1 (0 : Fin 1)))
  rw [show (fun d => xb0 m c t (ix3 (0 : Fin 1) k d)) = fun d => aX m c (ix3 (rowOf t) k d) from funext fun d => blk0 m c t k d,
    show (fun u => xb1 m c t (ix3 (0 : Fin 1) (0 : Fin 1) u)) = fun u => hid (aHd m c) (aW2 m c) (aB2 m c) (rowOf t) u
      from funext fun u => blk1 m c t u,
    show (fun d u => xb2 m c t (ix2 d u)) = fun d u => aW1 m c (ix2 d u) from funext fun d => funext fun u => blk2 m c t d u,
    show (fun u => xb3 m c t (ix1 u)) = fun u => aB1 m c (ix1 u) from funext fun u => blk3 m c t u,
    show (fun u => xb4 m c t (ix2 u (0 : Fin 1))) = fun u => aVw m c (ix2 u (0 : Fin 1)) from funext fun u => blk4 m c t u,
    blk5 m c t]

/-- The attention block of point `t` is the attention weights of batch row `t`. -/
theorem attn_point (c : Dev nD) (t : Fin cfg0.N) (k : Fin 2048) :
    (outsAt0 m c t).2 (ix3 (0 : Fin 1) (0 : Fin 1) k) = attnAt (aX m c) (aHd m c) (aW1 m c) (aB1 m c) (aW2 m c) (aB2 m c) (aVw m c) (aVb m c) (rowOf t) k := by
  unfold outsAt0
  dsimp only
  refine (congrFun (out7_eq (xb0 m c t) (xb1 m c t) (xb2 m c t) (xb3 m c t) (xb4 m c t) (xb5 m c t) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)) (ix3 (0 : Fin 1) (0 : Fin 1) k)).trans ?_
  rw [attn_pay]
  unfold attnAt rowAttn
  exact congrArg (fun l => softmaxAt l k) (funext fun k' => logit_point m c t k')

/-- The context block of point `t` is the context vector of batch row `t`. -/
theorem ctx_point (c : Dev nD) (t : Fin cfg0.N) (d : Fin 1024) :
    (outsAt0 m c t).1 (ix3 (0 : Fin 1) (0 : Fin 1) d) = ctxAt (aX m c) (aHd m c) (aW1 m c) (aB1 m c) (aW2 m c) (aB2 m c) (aVw m c) (aVb m c) (rowOf t) d := by
  unfold outsAt0
  dsimp only
  refine (congrFun (out6_eq (xb0 m c t) (xb1 m c t) (xb2 m c t) (xb3 m c t) (xb4 m c t) (xb5 m c t) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)) (ix3 (0 : Fin 1) (0 : Fin 1) d)).trans ?_
  rw [ctx_pay]
  unfold ctxAt rowCtx rowAttn
  refine Finset.sum_congr rfl fun k _ => ?_
  rw [blk0 m c t k d]
  exact congrArg (· * aX m c (ix3 (rowOf t) k d)) (congrArg (fun l => softmaxAt l k) (funext fun k' => logit_point m c t k'))

end Cert.KernelIdeal.Points

end
-- ==== Proof.Arrays.lean ====
/-
  The two output arrays of the call after the run: the context vectors as an array [32, 1, 1024] and the attention weights
  as an array [32, 1, 2048].

  Every grid point writes its two blocks back, block `t` of each array, and what it writes is block `t` of one
  function of the arguments; the 32 blocks cover each array, so each array ends holding that function.
-/
import proofs.«406236_j50689204027783_3_alg».proof.Proof.Points

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen Cert.KernelIdeal.Blocks Cert.KernelIdeal.Points Cert.AdditiveAttention

variable (m : (ℓ : Loc nD τ sig) → Buf (Elt Ideal) ℓ)

/-- The context vectors of the arguments, as the call's first result array [32, 1, 1024]. -/
def ctxArr (c : Dev nD) : Vec Ideal S32x1x1024 .f32 := fun i =>
  ctxAt (aX m c) (aHd m c) (aW1 m c) (aB1 m c) (aW2 m c) (aB2 m c) (aVw m c) (aVb m c) ⟨(i 0).val, (i 0).isLt⟩ ⟨(i 2).val, (i 2).isLt⟩

/-- The attention weights of the arguments, as the call's second result array [32, 1, 2048]. -/
def attnArr (c : Dev nD) : Vec Ideal S32x1x2048 .f32 := fun i =>
  attnAt (aX m c) (aHd m c) (aW1 m c) (aB1 m c) (aW2 m c) (aB2 m c) (aVw m c) (aVb m c) ⟨(i 0).val, (i 0).isLt⟩ ⟨(i 2).val, (i 2).isLt⟩

/-- An index of the array is in point `t`'s block of output window 6 iff each coordinate is in the block's range. -/
theorem mem_blk6 (t : Fin cfg0.N) (i : S32x1x1024.Idx) :
    i ∈ ((cfg0.win 6).blk t).view.set ↔ ∀ a : Fin 3, win0_6.index t a * S1x1x1024.size a ≤ (i a).val
      ∧ (i a).val < win0_6.index t a * S1x1x1024.size a + S1x1x1024.size a := by
  show i ∈ ((View.whole main_v6_0).slice (win0_6.rect t)).set ↔ _
  rw [View.set_slice_whole, Rect.mem_set_unit]
  exact Iff.rfl

/-- What point `t` writes back through window 6 is block `t` of the context vectors. -/
theorem flushed6_eq (c : Dev nD) (t : Fin cfg0.N) (hf : (cfg0.win 6).flush t = true) :
    (dats m 0 c).flushed 6 t = ((cfg0.win 6).blk t).view.read (Elt Ideal) (ctxArr m c) := by
  obtain ⟨-, -, -, -, -, -, -, -, -, -, -, -, e60, e61, e62, e70, e71, e72⟩ := idx_facts t
  show (cfg0.win 6).cut (grid0.coords t) ((dats m 0 c).after 6 t) = _
  rw [after0_6]
  funext (j : S1x1x1024.Idx)
  show (outsAt0 m c t).1 j = ctxArr m c (((cfg0.win 6).blk t).view.emb j)
  obtain ⟨a, b, k, rfl⟩ : ∃ (a : Fin 1) (b : Fin 1) (k : Fin 1024), j = ix3 a b k := ⟨j 0, j 1, j 2, eq_ix3 j⟩
  obtain rfl : a = 0 := Subsingleton.elim _ _
  obtain rfl : b = 0 := Subsingleton.elim _ _
  rw [ctx_point]
  unfold ctxArr
  refine congr (congrArg (ctxAt (aX m c) (aHd m c) (aW1 m c) (aB1 m c) (aW2 m c) (aB2 m c) (aVw m c) (aVb m c)) (Fin.ext ?_)) (Fin.ext ?_)
  · show t.val = win0_6.index t (0 : Fin 3) * 1 + 1 * 0
    omega
  · show k.val = win0_6.index t (2 : Fin 3) * 1024 + 1 * k.val
    omega

/-- Every index of window 6's array is in the block of the point its batch coordinate names. -/
theorem cover6 (i : S32x1x1024.Idx) :
    ∃ t : Fin cfg0.N, (cfg0.win 6).flush t = true ∧ i ∈ ((cfg0.win 6).blk t).view.set := by
  have h0 : (i 0).val < 32 := (i 0).isLt
  have h1 : (i 1).val < 1 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, -, -, -, e60, e61, e62, e70, e71, e72⟩ := idx_facts t
  refine ⟨t, flush0_6 t, ?_⟩
  rw [mem_blk6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1 ≤ (i 1).val ∧ (i 1).val < win0_6.index t (1 : Fin 3) * 1 + 1
    omega
  | ⟨2, _⟩ =>
    show win0_6.index t (2 : Fin 3) * 1024 ≤ (i 2).val ∧ (i 2).val < win0_6.index t (2 : Fin 3) * 1024 + 1024
    omega

/-- The array of window 6 after the run is the context vectors. -/
theorem final6 (c : Dev nD) : (dats m 0 c).arrAt 6 cfg0.N = ctxArr m c :=
  (dats m 0 c).arrAt_eq_of_cover 6 (ctxArr m c) (flushed6_eq m c) (cover6)

/-- An index of the array is in point `t`'s block of output window 7 iff each coordinate is in the block's range. -/
theorem mem_blk7 (t : Fin cfg0.N) (i : S32x1x2048.Idx) :
    i ∈ ((cfg0.win 7).blk t).view.set ↔ ∀ a : Fin 3, win0_7.index t a * S1x1x2048.size a ≤ (i a).val
      ∧ (i a).val < win0_7.index t a * S1x1x2048.size a + S1x1x2048.size a := by
  show i ∈ ((View.whole main_v6_1).slice (win0_7.rect t)).set ↔ _
  rw [View.set_slice_whole, Rect.mem_set_unit]
  exact Iff.rfl

/-- What point `t` writes back through window 7 is block `t` of the attention weights. -/
theorem flushed7_eq (c : Dev nD) (t : Fin cfg0.N) (hf : (cfg0.win 7).flush t = true) :
    (dats m 0 c).flushed 7 t = ((cfg0.win 7).blk t).view.read (Elt Ideal) (attnArr m c) := by
  obtain ⟨-, -, -, -, -, -, -, -, -, -, -, -, e60, e61, e62, e70, e71, e72⟩ := idx_facts t
  show (cfg0.win 7).cut (grid0.coords t) ((dats m 0 c).after 7 t) = _
  rw [after0_7]
  funext (j : S1x1x2048.Idx)
  show (outsAt0 m c t).2 j = attnArr m c (((cfg0.win 7).blk t).view.emb j)
  obtain ⟨a, b, k, rfl⟩ : ∃ (a : Fin 1) (b : Fin 1) (k : Fin 2048), j = ix3 a b k := ⟨j 0, j 1, j 2, eq_ix3 j⟩
  obtain rfl : a = 0 := Subsingleton.elim _ _
  obtain rfl : b = 0 := Subsingleton.elim _ _
  rw [attn_point]
  unfold attnArr
  refine congr (congrArg (attnAt (aX m c) (aHd m c) (aW1 m c) (aB1 m c) (aW2 m c) (aB2 m c) (aVw m c) (aVb m c)) (Fin.ext ?_)) (Fin.ext ?_)
  · show t.val = win0_7.index t (0 : Fin 3) * 1 + 1 * 0
    omega
  · show k.val = win0_7.index t (2 : Fin 3) * 2048 + 1 * k.val
    omega

/-- Every index of window 7's array is in the block of the point its batch coordinate names. -/
theorem cover7 (i : S32x1x2048.Idx) :
    ∃ t : Fin cfg0.N, (cfg0.win 7).flush t = true ∧ i ∈ ((cfg0.win 7).blk t).view.set := by
  have h0 : (i 0).val < 32 := (i 0).isLt
  have h1 : (i 1).val < 1 := (i 1).isLt
  have h2 : (i 2).val < 2048 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, -, -, -, e60, e61, e62, e70, e71, e72⟩ := idx_facts t
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 1 ≤ (i 1).val ∧ (i 1).val < win0_7.index t (1 : Fin 3) * 1 + 1
    omega
  | ⟨2, _⟩ =>
    show win0_7.index t (2 : Fin 3) * 2048 ≤ (i 2).val ∧ (i 2).val < win0_7.index t (2 : Fin 3) * 2048 + 2048
    omega

/-- The array of window 7 after the run is the attention weights. -/
theorem final7 (c : Dev nD) : (dats m 0 c).arrAt 7 cfg0.N = attnArr m c :=
  (dats m 0 c).arrAt_eq_of_cover 7 (attnArr m c) (flushed7_eq m c) (cover7)

end Cert.KernelIdeal.Arrays

end
-- ==== Proof.Tail.lean ====
/-
  The two host operations after the call: the first result of @main is the reshape of the call's first output array,
  the second the transpose of its second output array, whatever those arrays hold after the run.
-/
import proofs.«406236_j50689204027783_3_alg».proof.Proof.Gen.KernelIdeal.Frame
import Idealize.ShloMosaic.PureOps.Ideal
import Idealize.ShloMosaic.Lib.Pipeline.Value
import Idealize.ShloMosaic.Lib.StableHlo.Run
import Idealize.ShloMosaic.Lib.Tactic

set_option maxRecDepth 16384

noncomputable section

namespace Cert.KernelIdeal.Tail

open Idealize.ShloMosaic Idealize.ShloMosaic.TcCoe Idealize.SL.Sem
open Cert.KernelIdeal Cert.KernelIdeal.Gen

variable (m : (ℓ : Loc nD τ sig) → Buf (Elt Ideal) ℓ)

/-- After the host operations that follow the call, the first result holds the reshape to [32, 1024] of what the call's
    first output array holds after the run. -/
theorem tail_ctx (c : Dev nD) (A6 : Vec Ideal S32x1x1024 .f32) (h6 : (dats m 0 c).arrAt 6 cfg0.N = A6) :
    Pipeline.afterTail₀ cfgs (dats m) 0 (V0 m) [hostOps1] c main_v7
      = shapeCast S32x1024 A6 shapeCasts_S32x1x1024_S32x1024 := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v6_0) = A6 :=
    (Pipeline.withArrays_arr spec0 launch0.win.arr_inj c _ _ 6).trans h6
  rw [e]
  rfl

/-- And the second result holds the transpose to [32, 2048, 1] of what the call's second output array holds. -/
theorem tail_attn (c : Dev nD) (A7 : Vec Ideal S32x1x2048 .f32) (h7 : (dats m 0 c).arrAt 7 cfg0.N = A7) :
    Pipeline.afterTail₀ cfgs (dats m) 0 (V0 m) [hostOps1] c main_v8
      = transpose S32x2048x1 [0, 2, 1] A7 transposes_S32x1x2048_S32x2048x1_0_2_1 := by
  unfold Pipeline.afterTail₀
  show StableHlo.after hostOps1 _ (Proc.devRef .tc main_v8) = _
  after_results
  have e : Pipeline.withArrays (cfgs 0).spec c (V0 m c) (fun w => (dats m 0 c).arrAt w (cfgs 0).N)
      (Proc.devRef .tc main_v6_1) = A7 :=
    (Pipeline.withArrays_arr spec0 launch0.win.arr_inj c _ _ 7).trans h7
  rw [e]

end Cert.KernelIdeal.Tail

end
-- ==== Proof.KernelRun.lean ====
/-
  The kernel program's run at the ideal instance, read: its two results are the context vectors and the attention
  weights of the arguments, and the arguments end unchanged.

  The call's two output arrays end holding the context vectors as [32, 1, 1024] and the attention weights as [32, 1, 2048];
  the host then reshapes the first to [32, 1024] and transposes the second to [32, 2048, 1], which only re-index them.
-/
import proofs.«406236_j50689204027783_3_alg».proof.Proof.Arrays
import proofs.«406236_j50689204027783_3_alg».proof.Proof.Tail
import proofs.«406236_j50689204027783_3_alg».proof.Proof.HostOps

set_option maxRecDepth 16384

noncomputable section

namespace Cert.KernelIdeal.RunValue

open Idealize.ShloMosaic Idealize.ShloMosaic.TcCoe Idealize.SL.Sem Idealize.ShloMosaic.ValueIdx
open Cert.KernelIdeal Cert.KernelIdeal.Gen Cert.KernelIdeal.Blocks Cert.KernelIdeal.Arrays Cert.KernelIdeal.Tail
open Cert.KernelIdeal.HostOps Cert.AdditiveAttention

variable (m : (ℓ : Loc nD τ sig) → Buf (Elt Ideal) ℓ) (ρ : Dev nD → PrngReg)

/-- The first result after the host's reshape: the context vector of batch row `i 0` at channel `i 1`. -/
theorem res_ctx (c : Dev nD) :
    Pipeline.afterTail₀ cfgs (dats m) 0 (V0 m) [hostOps1] c main_v7
      = fun i => ctxAt (aX m c) (aHd m c) (aW1 m c) (aB1 m c) (aW2 m c) (aB2 m c) (aVw m c) (aVb m c) (i 0) (i 1) := by
  rw [tail_ctx m c (ctxArr m c) (final6 m c)]
  funext i
  obtain ⟨b, d, rfl⟩ : ∃ (b : Fin 32) (d : Fin 1024), i = ix2 b d := ⟨i 0, i 1, eq_ix2 i⟩
  rw [ctx_reshape_apply]
  rfl

/-- The second result after the host's transpose: the attention weight of batch row `i 0` at position `i 1`. -/
theorem res_attn (c : Dev nD) :
    Pipeline.afterTail₀ cfgs (dats m) 0 (V0 m) [hostOps1] c main_v8
      = fun i => attnAt (aX m c) (aHd m c) (aW1 m c) (aB1 m c) (aW2 m c) (aB2 m c) (aVw m c) (aVb m c) (i 0) (i 1) := by
  rw [tail_attn m c (attnArr m c) (final7 m c)]
  funext i
  obtain ⟨b, t, z, rfl⟩ : ∃ (b : Fin 32) (t : Fin 2048) (z : Fin 1), i = ix3 b t z := ⟨i 0, i 1, i 2, eq_ix3 i⟩
  obtain rfl : z = 0 := Subsingleton.elim _ _
  rw [attn_transpose_apply]
  rfl

/-- Every weakly fair execution of the kernel program terminates with the two results at the specification's values
    of the arguments, and the arguments unchanged. -/
theorem run : θ_run defs (onTc (τ := τ) (main (F := Ideal))) ⟨m, fun _ => 0, ρ⟩ (fun r => ∀ c : Dev nD,
      r.2.mem ((c.tc : Thread nD τ).loc main_v7) = (fun i => ctxAt (aX m c) (aHd m c) (aW1 m c) (aB1 m c) (aW2 m c) (aB2 m c) (aVw m c) (aVb m c) (i 0) (i 1))
      ∧ r.2.mem ((c.tc : Thread nD τ).loc main_v8) = (fun i => attnAt (aX m c) (aHd m c) (aW1 m c) (aB1 m c) (aW2 m c) (aB2 m c) (aVw m c) (aVb m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v7 (Pipeline.mem_restRefs_of main_v7 (by decide) (by decide))).trans (res_ctx m c),
      ((h c).2 main_v8 (Pipeline.mem_restRefs_of main_v8 (by decide) (by decide))).trans (res_attn m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c)))⟩)
    (run_main m ρ)

end Cert.KernelIdeal.RunValue

end
-- ==== Proof.RefRead.lean ====
/-
  The reference program read one operation at a time: its two results are, index by index, the context vector and the
  attention weights of the eight argument arrays.
-/
import proofs.«406236_j50689204027783_3_alg».proof.Defs
import proofs.«406236_j50689204027783_3_alg».proof.Proof.Gen.ReferenceIdeal.Run
import proofs.«406236_j50689204027783_3_alg».proof.Proof.Gen.ReferenceIdeal.Read
import proofs.«406236_j50689204027783_3_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.AdditiveAttention

section Stages

variable (x0 : (⟨S32x2048x1024, .f32⟩ : BufTy).Contents (Elt Ideal)) (x1 : (⟨S32x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1, .f32⟩ : BufTy).Contents (Elt Ideal)) (x7 : (⟨S1, .f32⟩ : BufTy).Contents (Elt Ideal))

/-- The projected hidden state of batch row `b`, channel `u`: the first dense layer's product plus its bias. -/
private theorem hid_eq (b : Fin 32) (u : Fin 1024) :
    Read.val_main_v3 (F := Ideal) x1 x4 x5 (ix2 b u) = hid x1 x4 x5 b u := by
  rw [Read.val_main_v3_apply, Read.val_main_v0_apply, Read.val_main_v2_apply, Read.val_main_v1_apply]
  have e1 : ∀ k : Fin 1024, Read.lidx_main_v0 (ix2 b u) k = ix2 b k := fun k => funext fun a => Fin.ext (by
    match a with | ⟨0, _⟩ => rfl | ⟨1, _⟩ => rfl)
  have e2 : ∀ k : Fin 1024, Read.ridx_main_v0 (ix2 b u) k = ix2 k u := fun k => funext fun a => Fin.ext (by
    match a with | ⟨0, _⟩ => rfl | ⟨1, _⟩ => rfl)
  have e3 : Read.idx_main_v1 (Read.idx_main_v2 (ix2 b u)) = ix1 u := funext fun a => Fin.ext (by
    match a with | ⟨0, _⟩ => rfl)
  simp only [e1, e2, e3, Ideal.addf_def]
  rfl

/-- The argument of `tanh` at position `t`, channel `u`: projected features, their bias, and the hidden state
    broadcast along the positions. -/
private theorem pre_eq (b : Fin 32) (t : Fin 2048) (u : Fin 1024) :
    Read.val_main_v10 (F := Ideal) x0 x1 x2 x3 x4 x5 (ix3 b t u)
      = ((∑ d : Fin 1024, x0 (ix3 b t d) * x2 (ix2 d u)) + x3 (ix1 u)) + hid x1 x4 x5 b u := by
  rw [Read.val_main_v10_apply, Read.val_main_v7_apply, Read.val_main_v4_apply, Read.val_main_v6_apply,
    Read.val_main_v5_apply, Read.val_main_v9_apply, Read.val_main_v8_apply]
  have e1 : ∀ k : Fin 1024, Read.lidx_main_v4 (ix3 b t u) k = ix3 b t k := fun k => funext fun a => Fin.ext (by
    match a with | ⟨0, _⟩ => rfl | ⟨1, _⟩ => rfl | ⟨2, _⟩ => rfl)
  have e2 : ∀ k : Fin 1024, Read.ridx_main_v4 (ix3 b t u) k = ix2 k u := fun k => funext fun a => Fin.ext (by
    match a with | ⟨0, _⟩ => rfl | ⟨1, _⟩ => rfl)
  have e3 : Read.idx_main_v5 (Read.idx_main_v6 (ix3 b t u)) = ix1 u := funext fun a => Fin.ext (by
    match a with | ⟨0, _⟩ => rfl)
  have e4 : Read.idx_main_v8 (Read.idx_main_v9 (ix3 b t u)) = ix2 b u := funext fun a => Fin.ext (by
    match a with | ⟨0, _⟩ => rfl | ⟨1, _⟩ => rfl)
  simp only [e1, e2, e3, e4, hid_eq, Ideal.addf_def]

/-- The 2048 logits of batch row `b`, as the specification writes them. -/
private abbrev lgt (b : Fin 32) : Fin 2048 → EReal :=
  rowLogit (fun t d => x0 (ix3 b t d)) (hid x1 x4 x5 b) (fun d u => x2 (ix2 d u)) (fun u => x3 (ix1 u))
    (fun u => x6 (ix2 u (0 : Fin 1))) (x7 (ix1 (0 : Fin 1)))

/-- The logit of position `t`: the scoring vector applied to the `tanh` layer, plus the scoring bias. -/
private theorem logit_eq (b : Fin 32) (t : Fin 2048) :
    Read.val_main_v15 (F := Ideal) x0 x1 x2 x3 x4 x5 x6 x7 (ix3 b t (0 : Fin 1)) = lgt x0 x1 x2 x3 x4 x5 x6 x7 b t := by
  rw [Read.val_main_v15_apply, Read.val_main_v12_apply, Read.val_main_v14_apply, Read.val_main_v13_apply]
  have e1 : ∀ k : Fin 1024, Read.lidx_main_v12 (ix3 b t (0 : Fin 1)) k = ix3 b t k := fun k => funext fun a => Fin.ext (by
    match a with | ⟨0, _⟩ => rfl | ⟨1, _⟩ => rfl | ⟨2, _⟩ => rfl)
  have e2 : ∀ k : Fin 1024, Read.ridx_main_v12 (ix3 b t (0 : Fin 1)) k = ix2 k (0 : Fin 1) := fun k => funext fun a => Fin.ext (by
    match a with | ⟨0, _⟩ => rfl | ⟨1, _⟩ => rfl)
  have e3 : Read.idx_main_v13 (Read.idx_main_v14 (ix3 b t (0 : Fin 1))) = ix1 (0 : Fin 1) := funext fun a => Fin.ext (by
    match a with | ⟨0, _⟩ => rfl)
  simp only [e1, e2, e3, Read.val_main_v11_apply, pre_eq, Ideal.hostUnary_tanh_def, Ideal.addf_def]
  rfl

/-- A position's index over the reduced index (b, 0): position `k` put back on the dropped axis. -/
private theorem lift_pos (h : S32x2048x1.Reduces [1] S32x1) (b : Fin 32) (k : Fin (S32x2048x1.size 1)) :
    h.lift (ix2 b (0 : Fin 1)) k = ix3 b (⟨k.val, k.isLt⟩ : Fin 2048) (0 : Fin 1) := by
  funext c; apply Fin.ext
  fin_cases c <;> rfl

/-- The word of negative infinity is the bottom of the extended reals. -/
private theorem ofBits_neg_inf : Ideal.ofBits .f32 0xFF800000#32 = ⊥ := by simp [Ideal.ofBits, Ideal.ieee]

/-- The maximum-reduce over the positions, from negative infinity, is the fold of `max` from `⊥` over them. -/
private theorem reduce_max_pos (y : FVec Ideal S32x2048x1 .f32) (h' : S32x2048x1.ReducesTo [1] S32x1)
    (hu : 0 < S_.numel) (b : Fin 32) :
    Host.reduce FloatOps.maximumf y (Read.val_main_cst (F := Ideal)) h' hu (ix2 b (0 : Fin 1))
      = (Finset.univ : Finset (Fin 2048)).fold max (⊥ : EReal) (fun k => y (ix3 b k (0 : Fin 1))) := by
  have h : S32x2048x1.Reduces [1] S32x1 := by decide
  rw [Host.reduce_eq_fold_single FloatOps.maximumf y _ h' h hu, Read.val_main_cst_apply, Ideal.ofBits_def, ofBits_neg_inf]
  have hf : (y ∘ h.lift (ix2 b (0 : Fin 1))) = fun k : Fin 2048 => y (ix3 b k (0 : Fin 1)) :=
    funext fun k => congrArg y (lift_pos h b k)
  exact congrArg (fun f => Finset.fold max (⊥ : EReal) f (Finset.univ : Finset (Fin 2048))) hf

/-- The row's maximum logit, after the extra `maximum` against negative infinity (which changes nothing). -/
private theorem max_eq (b : Fin 32) :
    Read.val_main_v18 (F := Ideal) x0 x1 x2 x3 x4 x5 x6 x7 (ix2 b (0 : Fin 1)) = maxOf (lgt x0 x1 x2 x3 x4 x5 x6 x7 b) := by
  rw [Read.val_main_v18_apply, Read.val_main_v17_apply, Read.val_main_cst_0_apply, Ideal.ofBits_def, ofBits_neg_inf,
    Ideal.maximumf_def, bot_sup_eq]
  unfold Read.val_main_v16
  refine (reduce_max_pos (Read.val_main_v15 (F := Ideal) x0 x1 x2 x3 x4 x5 x6 x7) _ _ b).trans ?_
  unfold maxOf
  exact congrArg (fun f => Finset.fold max (⊥ : EReal) f (Finset.univ : Finset (Fin 2048)))
    (funext fun k => logit_eq x0 x1 x2 x3 x4 x5 x6 x7 b k)

/-- The shifted exponential of position `t`'s logit. -/
private theorem exp_eq (b : Fin 32) (t : Fin 2048) :
    Read.val_main_v22 (F := Ideal) x0 x1 x2 x3 x4 x5 x6 x7 (ix3 b t (0 : Fin 1))
      = Ideal.exp (lgt x0 x1 x2 x3 x4 x5 x6 x7 b t - maxOf (lgt x0 x1 x2 x3 x4 x5 x6 x7 b)) := by
  rw [Read.val_main_v22_apply, Read.val_main_v21_apply, Read.val_main_v20_apply, Read.val_main_v19_apply]
  have e : Read.idx_main_v19 (Read.idx_main_v20 (ix3 b t (0 : Fin 1))) = ix2 b (0 : Fin 1) := funext fun a => Fin.ext (by
    match a with | ⟨0, _⟩ => rfl | ⟨1, _⟩ => rfl)
  rw [e, max_eq, logit_eq, Ideal.hostUnary_exp_def, Ideal.subf_def]

/-- The softmax's denominator: the sum of the shifted exponentials over the positions (the sum starts from zero). -/
private theorem sum_eq (b : Fin 32) :
    Read.val_main_v23 (F := Ideal) x0 x1 x2 x3 x4 x5 x6 x7 (ix2 b (0 : Fin 1))
      = ∑ k : Fin 2048, Ideal.exp (lgt x0 x1 x2 x3 x4 x5 x6 x7 b k - maxOf (lgt x0 x1 x2 x3 x4 x5 x6 x7 b)) := by
  rw [Read.val_main_v23_apply, Read.val_main_cst_1_apply, Ideal.ofBits_def, Ideal.ofBits_zero_f32, zero_add]
  have e : ∀ k : Fin 2048, Read.idx_main_v23 (ix2 b (0 : Fin 1)) k = ix3 b k (0 : Fin 1) := fun k => funext fun a => Fin.ext (by
    match a with | ⟨0, _⟩ => rfl | ⟨1, _⟩ => rfl | ⟨2, _⟩ => rfl)
  exact Finset.sum_congr rfl fun k _ => by rw [e, exp_eq]

/-- The attention weight of position `t`: the shifted exponential over the denominator. -/
private theorem attn_eq (b : Fin 32) (t : Fin 2048) :
    Read.val_main_v26 (F := Ideal) x0 x1 x2 x3 x4 x5 x6 x7 (ix3 b t (0 : Fin 1)) = attnAt x0 x1 x2 x3 x4 x5 x6 x7 b t := by
  rw [Read.val_main_v26_apply, Read.val_main_v25_apply, Read.val_main_v24_apply]
  have e : Read.idx_main_v24 (Read.idx_main_v25 (ix3 b t (0 : Fin 1))) = ix2 b (0 : Fin 1) := funext fun a => Fin.ext (by
    match a with | ⟨0, _⟩ => rfl | ⟨1, _⟩ => rfl)
  rw [e, sum_eq, exp_eq, Ideal.hostDivf_def]
  rfl

/-- The context vector's channel `d`: the attention-weighted sum of the features over the positions (from zero). -/
private theorem ctx_eq (b : Fin 32) (d : Fin 1024) :
    Read.val_main_v29 (F := Ideal) x0 x1 x2 x3 x4 x5 x6 x7 (ix2 b d) = ctxAt x0 x1 x2 x3 x4 x5 x6 x7 b d := by
  rw [Read.val_main_v29_apply, Read.val_main_cst_2_apply, Ideal.ofBits_def, Ideal.ofBits_zero_f32, zero_add]
  have e1 : ∀ k : Fin 2048, Read.idx_main_v29 (ix2 b d) k = ix3 b k d := fun k => funext fun a => Fin.ext (by
    match a with | ⟨0, _⟩ => rfl | ⟨1, _⟩ => rfl | ⟨2, _⟩ => rfl)
  have e2 : ∀ k : Fin 2048, Read.idx_main_v27 (ix3 b k d) = ix3 b k (0 : Fin 1) := fun k => funext fun a => Fin.ext (by
    match a with | ⟨0, _⟩ => rfl | ⟨1, _⟩ => rfl | ⟨2, _⟩ => rfl)
  unfold ctxAt rowCtx
  refine Finset.sum_congr rfl fun k _ => ?_
  rw [e1, Read.val_main_v28_apply, Read.val_main_v27_apply, e2, attn_eq, Ideal.mulf_def]
  rfl

end Stages

variable (m : (ℓ : Loc nD τ sig) → Buf (Elt Ideal) ℓ) (c : Dev nD)

/-- The reference's first result is the context vector of the arguments. -/
theorem ref_ctx :
    Cert.ReferenceIdeal.Value.res_out0 (F := Ideal) m c
      = fun i => ctxAt (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) (i 0) (i 1) := by
  show Cert.ReferenceIdeal.Value.res_main_v29 (F := Ideal) m c = _
  rw [Read.val_main_v29_eq]
  funext i
  obtain ⟨b, d, rfl⟩ : ∃ (b : Fin 32) (d : Fin 1024), i = ix2 b d := ⟨i 0, i 1, eq_ix2 i⟩
  exact ctx_eq _ _ _ _ _ _ _ _ b d

/-- The reference's second result is the attention weights of the arguments. -/
theorem ref_attn :
    Cert.ReferenceIdeal.Value.res_out1 (F := Ideal) m c
      = fun i => attnAt (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) (i 0) (i 1) := by
  show Cert.ReferenceIdeal.Value.res_main_v26 (F := Ideal) m c = _
  rw [Read.val_main_v26_eq]
  funext i
  obtain ⟨b, t, z, rfl⟩ : ∃ (b : Fin 32) (t : Fin 2048) (z : Fin 1), i = ix3 b t z := ⟨i 0, i 1, i 2, eq_ix3 i⟩
  obtain rfl : z = 0 := Subsingleton.elim _ _
  exact attn_eq _ _ _ _ _ _ _ _ b t

end Cert.ReferenceIdeal.RefValue

end
-- ==== Proof.lean ====
/-
  Additive attention: a Pallas kernel against its jnp reference, equal over the extended reals.

  Both programs compute, for each of 32 batch rows, the logits
      l t = (∑ u, tanh ((∑ d, x t d · W1 d u + b1 u) + h u) · v u) + vb        (t over 2048 positions),
  with h the projected hidden state (∑ d, hidden d · W2 d u) + b2 u, then the softmax of the logits over the positions,
      a t = exp (l t − max l) / ∑ k, exp (l k − max l),
  and the context vector c d = ∑ t, a t · x t d. The kernel takes one batch row per grid point, computes the logits 256
  positions at a time into a scratch row, and forms the softmax and the weighted sum on that row; its matrix products read
  operands in a narrower float format, which is the identity on the extended reals. The reference computes the same terms
  on whole arrays. The two differ only in how the sums are laid out and in one `max` against `⊥` that the reference
  applies once more; no step needs the inputs to be finite.

  The kernel's results are read off its generated frame run: what a grid point leaves in its output blocks (Pieces, over
  the payloads read at an index in TilePay), the blocks as values of the arguments (Blocks, HostOps, Points), the output
  arrays after the run (Arrays), and the two host operations after the call (Tail, KernelRun). The reference's results
  are read one operation at a time (RefRead). Both are stated over the same specification (Spec).
-/
import proofs.«406236_j50689204027783_3_alg».proof.Defs
import proofs.«406236_j50689204027783_3_alg».proof.Proof.Gen.Kernel
import proofs.«406236_j50689204027783_3_alg».proof.Proof.Gen.Kernel.Skeleton
import proofs.«406236_j50689204027783_3_alg».proof.Proof.Gen.Kernel.Launch
import proofs.«406236_j50689204027783_3_alg».proof.Proof.Gen.Kernel.Points
import proofs.«406236_j50689204027783_3_alg».proof.Proof.Gen.Kernel.Frame
import proofs.«406236_j50689204027783_3_alg».proof.Proof.Gen.KernelIdeal
import proofs.«406236_j50689204027783_3_alg».proof.Proof.Gen.KernelIdeal.Skeleton
import proofs.«406236_j50689204027783_3_alg».proof.Proof.Gen.KernelIdeal.Launch
import proofs.«406236_j50689204027783_3_alg».proof.Proof.Gen.KernelIdeal.Points
import proofs.«406236_j50689204027783_3_alg».proof.Proof.Gen.KernelIdeal.Frame
import proofs.«406236_j50689204027783_3_alg».proof.Proof.Gen.ReferenceIdeal
import proofs.«406236_j50689204027783_3_alg».proof.Proof.Gen.ReferenceIdeal.Run
import proofs.«406236_j50689204027783_3_alg».proof.Proof.Gen.Pre_finite_inputs
import proofs.«406236_j50689204027783_3_alg».proof.Proof.KernelRun
import proofs.«406236_j50689204027783_3_alg».proof.Proof.RefRead
import Idealize.ShloMosaic.Adequacy
import Idealize.ShloMosaic.Init

noncomputable section

namespace Cert.Proof

open Idealize.ShloMosaic Idealize.ShloMosaic.TcCoe Idealize.SL.Sem Cert.AdditiveAttention

/-- The word-level kernel program runs and leaves its arguments unchanged. -/
theorem frame_k : Cert.frame_Kernel := fun m ρ _ => Cert.Kernel.Gen.frame m ρ

/-- So does the kernel program read at the ideal instance. -/
theorem frame_ki : Cert.frame_KernelIdeal := fun m ρ _ => Cert.KernelIdeal.Gen.frame m ρ

/-- So does the reference: its run read back, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the eight arguments both programs run, and both end with the context vectors and the
    attention weights of those arguments: the kernel by its run read through the pipeline, the reference by its run read
    one operation at a time. -/
theorem algebraic : Cert.algebraic_KernelIdeal_ReferenceIdeal := by
  intro m ρ m' ρ' _ hagree
  refine ⟨fun c => fun i => ctxAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1),
    fun c => fun i => attnAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1),
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    refine (Cert.ReferenceIdeal.RefValue.ref_ctx m' c).trans ?_
    rw [h0, h1, h2, h3, h4, h5, h6, h7]
    rfl
  · obtain ⟨h0, h1, h2, h3, h4, h5, h6, h7⟩ := hagree c
    refine (Cert.ReferenceIdeal.RefValue.ref_attn m' c).trans ?_
    rw [h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
